-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_sigma" .f32 0x43480000#32 ((1073741824 / 5368709 : ℝ) : EReal)
  ∧ IdealRules.named_const.Statement Cert.KernelIdeal.κ "inv_sigma" .f32 0x43480000#32 ((1073741824 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x3 : Shape := ⟨3, ![2, 4096, 3]⟩
abbrev S2x4096x32 : Shape := ⟨3, ![2, 4096, 32]⟩
abbrev S2x4096x1 : Shape := ⟨3, ![2, 4096, 1]⟩
abbrev S_ : Shape := ⟨0, ![]⟩

class Facts : Prop where
  bcast_S_S2x4096x3 : S_.BroadcastsInDim S2x4096x3 (![] : Fin 0 → Fin S2x4096x3.rank)
  reducesTo_S2x4096x3_S_d0_1_2 : S2x4096x3.ReducesTo [0, 1, 2] S_
  h_S_ : 0 < S_.numel
  bcast_S_S2x4096x32 : S_.BroadcastsInDim S2x4096x32 (![] : Fin 0 → Fin S2x4096x32.rank)
  reducesTo_S2x4096x32_S_d0_1_2 : S2x4096x32.ReducesTo [0, 1, 2] S_
  bcast_S_S2x4096x1 : S_.BroadcastsInDim S2x4096x1 (![] : Fin 0 → Fin S2x4096x1.rank)
  reducesTo_S2x4096x1_S_d0_1_2 : S2x4096x1.ReducesTo [0, 1, 2] S_

variable [Facts]

def fn_part1 {F : FTy → Type} [FloatOps F] (main_v13 : IVec S_ 1) (main_v16 : IVec S2x4096x1 1) : IVec S_ 1 :=
  let main_c_5 : IVec S_ 1 := constantI S_ 1 1#1
  let main_v17 : IVec S_ 1 := (fun x v => Host.reduce IntOp.andi x v reducesTo_S2x4096x1_S_d0_1_2 h_S_) main_v16 main_c_5
  let main_v18 : IVec S_ 1 := andi main_v13 main_v17
  main_v18

def fn {F : FTy → Type} [FloatOps F] (main_arg0 : FVec F S2x4096x3 .f32) (main_arg1 : FVec F S2x4096x32 .f32) (main_arg2 : FVec F S2x4096x32 .f32) (main_arg3 : FVec F S2x4096x1 .f32) : IVec S_ 1 :=
  let main_v0 : FVec F S2x4096x3 .f32 := Host.absf main_arg0
  let main_cst : FVec F S_ .f32 := constant S_ .f32 0x7F800000#32
  let main_v1 : FVec F S2x4096x3 .f32 := broadcastInDim S2x4096x3 ![] bcast_S_S2x4096x3 main_cst
  let main_v2 : IVec S2x4096x3 1 := cmpf .olt main_v0 main_v1
  let main_c : IVec S_ 1 := constantI S_ 1 1#1
  let main_v3 : IVec S_ 1 := (fun x v => Host.reduce IntOp.andi x v reducesTo_S2x4096x3_S_d0_1_2 h_S_) main_v2 main_c
  let main_v4 : FVec F S2x4096x32 .f32 := Host.absf main_arg1
  let main_cst_0 : FVec F S_ .f32 := constant S_ .f32 0x7F800000#32
  let main_v5 : FVec F S2x4096x32 .f32 := broadcastInDim S2x4096x32 ![] bcast_S_S2x4096x32 main_cst_0
  let main_v6 : IVec S2x4096x32 1 := cmpf .olt main_v4 main_v5
  let main_c_1 : IVec S_ 1 := constantI S_ 1 1#1
  let main_v7 : IVec S_ 1 := (fun x v => Host.reduce IntOp.andi x v reducesTo_S2x4096x32_S_d0_1_2 h_S_) main_v6 main_c_1
  let main_v8 : IVec S_ 1 := andi main_v3 main_v7
  let main_v9 : FVec F S2x4096x32 .f32 := Host.absf main_arg2
  let main_cst_2 : FVec F S_ .f32 := constant S_ .f32 0x7F800000#32
  let main_v10 : FVec F S2x4096x32 .f32 := broadcastInDim S2x4096x32 ![] bcast_S_S2x4096x32 main_cst_2
  let main_v11 : IVec S2x4096x32 1 := cmpf .olt main_v9 main_v10
  let main_c_3 : IVec S_ 1 := constantI S_ 1 1#1
  let main_v12 : IVec S_ 1 := (fun x v => Host.reduce IntOp.andi x v reducesTo_S2x4096x32_S_d0_1_2 h_S_) main_v11 main_c_3
  let main_v13 : IVec S_ 1 := andi main_v8 main_v12
  let main_v14 : FVec F S2x4096x1 .f32 := Host.absf main_arg3
  let main_cst_4 : FVec F S_ .f32 := constant S_ .f32 0x7F800000#32
  let main_v15 : FVec F S2x4096x1 .f32 := broadcastInDim S2x4096x1 ![] bcast_S_S2x4096x1 main_cst_4
  let main_v16 : IVec S2x4096x1 1 := cmpf .olt main_v14 main_v15
  fn_part1 (F := F) main_v13 main_v16
-- ==== Kernel.lean ====
abbrev S2x4096x3 : Shape := ⟨3, ![2, 4096, 3]⟩
abbrev S2x4096x32 : Shape := ⟨3, ![2, 4096, 32]⟩
abbrev S2x4096x1 : Shape := ⟨3, ![2, 4096, 1]⟩
abbrev S2x4096 : Shape := ⟨2, ![2, 4096]⟩
abbrev S2x128x3 : Shape := ⟨3, ![2, 128, 3]⟩
abbrev S2x128x32 : Shape := ⟨3, ![2, 128, 32]⟩
abbrev S2x128x1 : Shape := ⟨3, ![2, 128, 1]⟩
abbrev S2x128 : Shape := ⟨2, ![2, 128]⟩
abbrev S2x1x4096 : Shape := ⟨3, ![2, 1, 4096]⟩
abbrev S2x128x4096 : Shape := ⟨3, ![2, 128, 4096]⟩
abbrev S_ : Shape := ⟨0, ![]⟩
abbrev S2 : Shape := ⟨1, ![2]⟩
abbrev S2x4096x29 : Shape := ⟨3, ![2, 4096, 29]⟩

abbrev nBuf : Space → Nat
  | .hbm => 22
  | .vmem => 10
  | .smem => 0
  | _ => 0

abbrev bufTy : (tb : Table) → Fin (tcTables nBuf tb) → BufTy
  | .hbm, ⟨0, _⟩ => ⟨S2x4096x3, .f32⟩
  | .hbm, ⟨1, _⟩ => ⟨S2x4096x32, .f32⟩
  | .hbm, ⟨2, _⟩ => ⟨S2x4096x32, .f32⟩
  | .hbm, ⟨3, _⟩ => ⟨S2x4096x1, .f32⟩
  | .hbm, ⟨4, _⟩ => ⟨S2x4096, .f32⟩
  | .hbm, ⟨5, _⟩ => ⟨S_, .f32⟩
  | .hbm, ⟨6, _⟩ => ⟨S2, .f32⟩
  | .hbm, ⟨7, _⟩ => ⟨S2x4096x29, .f32⟩
  | .hbm, ⟨8, _⟩ => ⟨S2x4096x29, .f32⟩
  | .hbm, ⟨9, _⟩ => ⟨S2x4096x29, .f32⟩
  | .hbm, ⟨10, _⟩ => ⟨S2x4096x29, .f32⟩
  | .hbm, ⟨11, _⟩ => ⟨S2x4096x29, .f32⟩
  | .hbm, ⟨12, _⟩ => ⟨S_, .f32⟩
  | .hbm, ⟨13, _⟩ => ⟨S2x4096, .f32⟩
  | .hbm, ⟨14, _⟩ => ⟨S_, .f32⟩
  | .hbm, ⟨15, _⟩ => ⟨S2x4096, .f32⟩
  | .hbm, ⟨16, _⟩ => ⟨S2x4096, .f32⟩
  | .hbm, ⟨17, _⟩ => ⟨S_, .f32⟩
  | .hbm, ⟨18, _⟩ => ⟨S2, .f32⟩
  | .hbm, ⟨19, _⟩ => ⟨S_, .f32⟩
  | .hbm, ⟨20, _⟩ => ⟨S2, .f32⟩
  | .hbm, ⟨21, _⟩ => ⟨S2, .f32⟩
  | .local _ .vmem, ⟨0, _⟩ => ⟨S2x128x3, .f32⟩
  | .local _ .vmem, ⟨1, _⟩ => ⟨S2x128x3, .f32⟩
  | .local _ .vmem, ⟨2, _⟩ => ⟨S2x4096x3, .f32⟩
  | .local _ .vmem, ⟨3, _⟩ => ⟨S2x128x32, .f32⟩
  | .local _ .vmem, ⟨4, _⟩ => ⟨S2x128x32, .f32⟩
  | .local _ .vmem, ⟨5, _⟩ => ⟨S2x4096x32, .f32⟩
  | .local _ .vmem, ⟨6, _⟩ => ⟨S2x128x1, .f32⟩
  | .local _ .vmem, ⟨7, _⟩ => ⟨S2x128x1, .f32⟩
  | .local _ .vmem, ⟨8, _⟩ => ⟨S2x128, .f32⟩
  | .local _ .vmem, ⟨9, _⟩ => ⟨S2x128, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4096x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x4096x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2x128x3_S2x128x3_0_0_0 : ∀ a, (![0, 0, 0] : Fin 3 → Nat) a + S2x128x3.size a ≤ S2x128x3.size a
  h_S2x128x3 : 0 < S2x128x3.numel
  inb_S2x4096x3_S2x4096x3_0_0_0 : ∀ a, (![0, 0, 0] : Fin 3 → Nat) a + S2x4096x3.size a ≤ S2x4096x3.size a
  h_S2x4096x3 : 0 < S2x4096x3.numel
  inb_S2x128x32_S2x128x32_0_0_0 : ∀ a, (![0, 0, 0] : Fin 3 → Nat) a + S2x128x32.size a ≤ S2x128x32.size a
  h_S2x128x32 : 0 < S2x128x32.numel
  inb_S2x4096x32_S2x4096x32_0_0_0 : ∀ a, (![0, 0, 0] : Fin 3 → Nat) a + S2x4096x32.size a ≤ S2x4096x32.size a
  h_S2x4096x32 : 0 < S2x4096x32.numel
  inb_S2x128x1_S2x128x1_0_0_0 : ∀ a, (![0, 0, 0] : Fin 3 → Nat) a + S2x128x1.size a ≤ S2x128x1.size a
  h_S2x128x1 : 0 < S2x128x1.numel
  reduces_S2x128x3_S2x128 : S2x128x3.Reduces [2] S2x128
  shapeCasts_S2x128_S2x128x1 : S2x128.ShapeCasts S2x128x1
  reduces_S2x4096x3_S2x4096 : S2x4096x3.Reduces [2] S2x4096
  shapeCasts_S2x4096_S2x1x4096 : S2x4096.ShapeCasts S2x1x4096
  broadcasts_S2x128x1_S2x128x4096 : S2x128x1.Broadcasts S2x128x4096
  broadcasts_S2x1x4096_S2x128x4096 : S2x1x4096.Broadcasts S2x128x4096
  reduces_S2x128x32_S2x128 : S2x128x32.Reduces [2] S2x128
  reduces_S2x4096x32_S2x4096 : S2x4096x32.Reduces [2] S2x4096
  reduces_S2x128x4096_S2x128 : S2x128x4096.Reduces [2] S2x128
  shapeCasts_S2x128x1_S2x128 : S2x128x1.ShapeCasts S2x128
  inb_S2x128_S2x128_0_0 : ∀ a, (![0, 0] : Fin 2 → Nat) a + S2x128.size a ≤ S2x128.size a
  h_S2x128 : 0 < S2x128.numel
  reducesTo_S2x4096_S2_d1 : S2x4096.ReducesTo [1] S2
  h_S_ : 0 < S_.numel
  slices_S2x4096x32_S2x4096x29_0_0_3 : S2x4096x32.Slices ![0, 0, 3] S2x4096x29
  reducesTo_S2x4096x29_S2x4096_d2 : S2x4096x29.ReducesTo [2] S2x4096
  bcast_S_S2x4096 : S_.BroadcastsInDim S2x4096 (![] : Fin 0 → Fin S2x4096.rank)
  bcast_S_S2 : S_.BroadcastsInDim S2 (![] : Fin 0 → Fin S2.rank)
  dot_S2x128x3_S2x4096x3_S2x128x4096_2_2_1_1_0_0_wf : DotDims.WF S2x128x3 S2x4096x3 S2x128x4096 [2] [2] [1] [1] [0] [0]
  dot_S2x128x32_S2x4096x32_S2x128x4096_2_2_1_1_0_0_wf : DotDims.WF S2x128x32 S2x4096x32 S2x128x4096 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x3.size a ≤ S2x4096x3.size a
  hwx0_0 : ∀ i : grid0.Coords, EltTy.bits .f32 = 32 ∨ (Rect.block (s := S2x4096x3) S2x128x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x4096x3.size a ≤ S2x4096x3.size a
  hwx0_1 : ∀ i : grid0.Coords, EltTy.bits .f32 = 32 ∨ (Rect.block (s := S2x4096x3) S2x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x128x32.size a ≤ S2x4096x32.size a
  hwx0_2 : ∀ i : grid0.Coords, EltTy.bits .f32 = 32 ∨ (Rect.block (s := S2x4096x32) S2x128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x4096x32.size a ≤ S2x4096x32.size a
  hwx0_3 : ∀ i : grid0.Coords, EltTy.bits .f32 = 32 ∨ (Rect.block (s := S2x4096x32) S2x4096x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x128x1.size a ≤ S2x4096x1.size a
  hwx0_4 : ∀ i : grid0.Coords, EltTy.bits .f32 = 32 ∨ (Rect.block (s := S2x4096x1) S2x128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x128.size a ≤ S2x4096.size a
  hwx0_5 : ∀ i : grid0.Coords, EltTy.bits .f32 = 32 ∨ (Rect.block (s := S2x4096) S2x128.size (cc0_transform_5 i) (hinb0_5 i)).WholeWords (EltTy.packing .f32)

variable [Facts₀]

def dot_S2x128x3_S2x4096x3_S2x128x4096_2_2_1_1_0_0 : DotDims S2x128x3 S2x4096x3 S2x128x4096 where
  lhsContracting := [2]
  rhsContracting := [2]
  lhsNonContracting := [1]
  rhsNonContracting := [1]
  lhsBatch := [0]
  rhsBatch := [0]
  wf := dot_S2x128x3_S2x4096x3_S2x128x4096_2_2_1_1_0_0_wf
def dot_S2x128x32_S2x4096x32_S2x128x4096_2_2_1_1_0_0 : DotDims S2x128x32 S2x4096x32 S2x128x4096 where
  lhsContracting := [2]
  rhsContracting := [2]
  lhsNonContracting := [1]
  rhsNonContracting := [1]
  lhsBatch := [0]
  rhsBatch := [0]
  wf := dot_S2x128x32_S2x4096x32_S2x128x4096_2_2_1_1_0_0_wf

abbrev win0_0 : Pipeline.Window sig grid0 :=
  Pipeline.Window.ofSpec (Memref.whole main_arg0) S2x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2x4096x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2x128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2x4096x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2x128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4096x3 : Shape := ⟨3, ![2, 4096, 3]⟩
abbrev S2x4096x32 : Shape := ⟨3, ![2, 4096, 32]⟩
abbrev S2x4096x1 : Shape := ⟨3, ![2, 4096, 1]⟩
abbrev S_ : Shape := ⟨0, ![]⟩
abbrev S2x4096 : Shape := ⟨2, ![2, 4096]⟩
abbrev S2x4096x4096 : Shape := ⟨3, ![2, 4096, 4096]⟩
abbrev S2x1x4096 : Shape := ⟨3, ![2, 1, 4096]⟩
abbrev S2 : Shape := ⟨1, ![2]⟩
abbrev S2x4096x29 : Shape := ⟨3, ![2, 4096, 29]⟩

abbrev nBuf : Space → Nat
  | .hbm => 95
  | .vmem => 0
  | .smem => 0
  | _ => 0

abbrev bufTy : (tb : Table) → Fin (tcTables nBuf tb) → BufTy
  | .hbm, ⟨0, _⟩ => ⟨S2x4096x3, .f32⟩
  | .hbm, ⟨1, _⟩ => ⟨S2x4096x32, .f32⟩
  | .hbm, ⟨2, _⟩ => ⟨S2x4096x32, .f32⟩
  | .hbm, ⟨3, _⟩ => ⟨S2x4096x1, .f32⟩
  | .hbm, ⟨4, _⟩ => ⟨S_, .f32⟩
  | .hbm, ⟨5, _⟩ => ⟨S2x4096x3, .f32⟩
  | .hbm, ⟨6, _⟩ => ⟨S2x4096x3, .f32⟩
  | .hbm, ⟨7, _⟩ => ⟨S2x4096x3, .f32⟩
  | .hbm, ⟨8, _⟩ => ⟨S_, .f32⟩
  | .hbm, ⟨9, _⟩ => ⟨S2x4096, .f32⟩
  | .hbm, ⟨10, _⟩ => ⟨S2x4096x3, .f32⟩
  | .hbm, ⟨11, _⟩ => ⟨S_, .f32⟩
  | .hbm, ⟨12, _⟩ => ⟨S2x4096, .f32⟩
  | .hbm, ⟨13, _⟩ => ⟨S2x4096x4096, .f32⟩
  | .hbm, ⟨14, _⟩ => ⟨S2x4096x1, .f32⟩
  | .hbm, ⟨15, _⟩ => ⟨S2x1x4096, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S_, .f32⟩
  | .hbm, ⟨20, _⟩ => ⟨S2x4096x4096, .f32⟩
  | .hbm, ⟨21, _⟩ => ⟨S2x4096x4096, .f32⟩
  | .hbm, ⟨22, _⟩ => ⟨S2x4096x4096, .f32⟩
  | .hbm, ⟨23, _⟩ => ⟨S2x4096x4096, .f32⟩
  | .hbm, ⟨24, _⟩ => ⟨S_, .f32⟩
  | .hbm, ⟨25, _⟩ => ⟨S2x4096, .f32⟩
  | .hbm, ⟨26, _⟩ => ⟨S_, .f32⟩
  | .hbm, ⟨27, _⟩ => ⟨S2x4096, .f32⟩
  | .hbm, ⟨28, _⟩ => ⟨S2x4096, .f32⟩
  | .hbm, ⟨29, _⟩ => ⟨S2x4096x1, .f32⟩
  | .hbm, ⟨30, _⟩ => ⟨S2x4096x4096, .f32⟩
  | .hbm, ⟨31, _⟩ => ⟨S2x4096x4096, .f32⟩
  | .hbm, ⟨32, _⟩ => ⟨S2x4096x4096, .f32⟩
  | .hbm, ⟨33, _⟩ => ⟨S_, .f32⟩
  | .hbm, ⟨34, _⟩ => ⟨S2x4096, .f32⟩
  | .hbm, ⟨35, _⟩ => ⟨S2x4096x1, .f32⟩
  | .hbm, ⟨36, _⟩ => ⟨S2x4096x1, .f32⟩
  | .hbm, ⟨37, _⟩ => ⟨S2x4096x4096, .f32⟩
  | .hbm, ⟨38, _⟩ => ⟨S2x4096x4096, .f32⟩
  | .hbm, ⟨39, _⟩ => ⟨S2x4096x32, .f32⟩
  | .hbm, ⟨40, _⟩ => ⟨S_, .f32⟩
  | .hbm, ⟨41, _⟩ => ⟨S2x4096, .f32⟩
  | .hbm, ⟨42, _⟩ => ⟨S2x4096x32, .f32⟩
  | .hbm, ⟨43, _⟩ => ⟨S_, .f32⟩
  | .hbm, ⟨44, _⟩ => ⟨S2x4096, .f32⟩
  | .hbm, ⟨45, _⟩ => ⟨S2x4096x4096, .f32⟩
  | .hbm, ⟨46, _⟩ => ⟨S2x4096x1, .f32⟩
  | .hbm, ⟨47, _⟩ => ⟨S2x1x4096, .f32⟩
  | .hbm, ⟨48, _⟩ => ⟨S2x4096x4096, .f32⟩
  | .hbm, ⟨49, _⟩ => ⟨S2x4096x4096, .f32⟩
  | .hbm, ⟨50, _⟩ => ⟨S2x4096x4096, .f32⟩
  | .hbm, ⟨51, _⟩ => ⟨S_, .f32⟩
  | .hbm, ⟨52, _⟩ => ⟨S2x4096x4096, .f32⟩
  | .hbm, ⟨53, _⟩ => ⟨S2x4096x4096, .f32⟩
  | .hbm, ⟨54, _⟩ => ⟨S2x4096x4096, .f32⟩
  | .hbm, ⟨55, _⟩ => ⟨S2x4096x4096, .f32⟩
  | .hbm, ⟨56, _⟩ => ⟨S_, .f32⟩
  | .hbm, ⟨57, _⟩ => ⟨S2x4096, .f32⟩
  | .hbm, ⟨58, _⟩ => ⟨S_, .f32⟩
  | .hbm, ⟨59, _⟩ => ⟨S2x4096, .f32⟩
  | .hbm, ⟨60, _⟩ => ⟨S2x4096, .f32⟩
  | .hbm, ⟨61, _⟩ => ⟨S2x4096x1, .f32⟩
  | .hbm, ⟨62, _⟩ => ⟨S2x4096x4096, .f32⟩
  | .hbm, ⟨63, _⟩ => ⟨S2x4096x4096, .f32⟩
  | .hbm, ⟨64, _⟩ => ⟨S2x4096x4096, .f32⟩
  | .hbm, ⟨65, _⟩ => ⟨S_, .f32⟩
  | .hbm, ⟨66, _⟩ => ⟨S2x4096, .f32⟩
  | .hbm, ⟨67, _⟩ => ⟨S2x4096x1, .f32⟩
  | .hbm, ⟨68, _⟩ => ⟨S2x4096x1, .f32⟩
  | .hbm, ⟨69, _⟩ => ⟨S2x4096x4096, .f32⟩
  | .hbm, ⟨70, _⟩ => ⟨S2x4096x4096, .f32⟩
  | .hbm, ⟨71, _⟩ => ⟨S2x4096x4096, .f32⟩
  | .hbm, ⟨72, _⟩ => ⟨S2x4096x4096, .f32⟩
  | .hbm, ⟨73, _⟩ => ⟨S_, .f32⟩
  | .hbm, ⟨74, _⟩ => ⟨S2x4096, .f32⟩
  | .hbm, ⟨75, _⟩ => ⟨S2x4096, .f32⟩
  | .hbm, ⟨76, _⟩ => ⟨S2x4096, .f32⟩
  | .hbm, ⟨77, _⟩ => ⟨S2x4096, .f32⟩
  | .hbm, ⟨78, _⟩ => ⟨S_, .f32⟩
  | .hbm, ⟨79, _⟩ => ⟨S2, .f32⟩
  | .hbm, ⟨80, _⟩ => ⟨S2x4096x29, .f32⟩
  | .hbm, ⟨81, _⟩ => ⟨S2x4096x29, .f32⟩
  | .hbm, ⟨82, _⟩ => ⟨S2x4096x29, .f32⟩
  | .hbm, ⟨83, _⟩ => ⟨S2x4096x29, .f32⟩
  | .hbm, ⟨84, _⟩ => ⟨S2x4096x29, .f32⟩
  | .hbm, ⟨85, _⟩ => ⟨S_, .f32⟩
  | .hbm, ⟨86, _⟩ => ⟨S2x4096, .f32⟩
  | .hbm, ⟨87, _⟩ => ⟨S_, .f32⟩
  | .hbm, ⟨88, _⟩ => ⟨S2x4096, .f32⟩
  | .hbm, ⟨89, _⟩ => ⟨S2x4096, .f32⟩
  | .hbm, ⟨90, _⟩ => ⟨S_, .f32⟩
  | .hbm, ⟨91, _⟩ => ⟨S2, .f32⟩
  | .hbm, ⟨92, _⟩ => ⟨S_, .f32⟩
  | .hbm, ⟨93, _⟩ => ⟨S2, .f32⟩
  | .hbm, ⟨94, _⟩ => ⟨S2, .f32⟩
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_call0_cst_0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_cst_1 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call1_cst : Ref sig .tc := ⟨.hbm, 56, rfl⟩
abbrev main_call1_v0 : Ref sig .tc := ⟨.hbm, 57, rfl⟩
abbrev main_call1_cst_0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_cst_1 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_6 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_7 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_8 : Ref sig .tc := ⟨.hbm, 85, rfl⟩
abbrev main_v44 : Ref sig .tc := ⟨.hbm, 86, rfl⟩
abbrev main_cst_9 : Ref sig .tc := ⟨.hbm, 87, rfl⟩
abbrev main_v45 : Ref sig .tc := ⟨.hbm, 88, rfl⟩
abbrev main_v46 : Ref sig .tc := ⟨.hbm, 89, rfl⟩
abbrev main_cst_10 : Ref sig .tc := ⟨.hbm, 90, rfl⟩
abbrev main_v47 : Ref sig .tc := ⟨.hbm, 91, rfl⟩
abbrev main_cst_11 : Ref sig .tc := ⟨.hbm, 92, rfl⟩
abbrev main_v48 : Ref sig .tc := ⟨.hbm, 93, rfl⟩
abbrev main_v49 : Ref sig .tc := ⟨.hbm, 94, rfl⟩

abbrev nD : Nat := 1
abbrev τ : Topo := Topo.v7x

variable {F : FTy → Type} [FloatOps F]

class Facts₀ : Prop where
  bcast_S_S2x4096x3 : S_.BroadcastsInDim S2x4096x3 (![] : Fin 0 → Fin S2x4096x3.rank)
  reducesTo_S2x4096x3_S2x4096_d2 : S2x4096x3.ReducesTo [2] S2x4096
  h_S_ : 0 < S_.numel
  bcast_S2x4096_S2x4096x1_0_1 : S2x4096.BroadcastsInDim S2x4096x1 (![0, 1] : Fin 2 → Fin S2x4096x1.rank)
  bcast_S2x4096_S2x1x4096_0_2 : S2x4096.BroadcastsInDim S2x1x4096 (![0, 2] : Fin 2 → Fin S2x1x4096.rank)
  bcast_S2x4096x1_S2x4096x4096_0_1_2 : S2x4096x1.BroadcastsInDim S2x4096x4096 (![0, 1, 2] : Fin 3 → Fin S2x4096x4096.rank)
  bcast_S2x1x4096_S2x4096x4096_0_1_2 : S2x1x4096.BroadcastsInDim S2x4096x4096 (![0, 1, 2] : Fin 3 → Fin S2x4096x4096.rank)
  bcast_S_S2x4096x4096 : S_.BroadcastsInDim S2x4096x4096 (![] : Fin 0 → Fin S2x4096x4096.rank)
  reducesTo_S2x4096x4096_S2x4096_d2 : S2x4096x4096.ReducesTo [2] S2x4096
  bcast_S_S2x4096 : S_.BroadcastsInDim S2x4096 (![] : Fin 0 → Fin S2x4096.rank)
  reducesTo_S2x4096x32_S2x4096_d2 : S2x4096x32.ReducesTo [2] S2x4096
  shapeCasts_S2x4096x1_S2x4096 : S2x4096x1.ShapeCasts S2x4096
  reducesTo_S2x4096_S2_d1 : S2x4096.ReducesTo [1] S2
  slices_S2x4096x32_S2x4096x29_0_0_3 : S2x4096x32.Slices ![0, 0, 3] S2x4096x29
  reducesTo_S2x4096x29_S2x4096_d2 : S2x4096x29.ReducesTo [2] S2x4096
  bcast_S_S2 : S_.BroadcastsInDim S2 (![] : Fin 0 → Fin S2.rank)
  dot_S2x4096x3_S2x4096x3_S2x4096x4096_2_2_1_1_0_0_wf : DotDims.WF S2x4096x3 S2x4096x3 S2x4096x4096 [2] [2] [1] [1] [0] [0]
  dot_S2x4096x32_S2x4096x32_S2x4096x4096_2_2_1_1_0_0_wf : DotDims.WF S2x4096x32 S2x4096x32 S2x4096x4096 [2] [2] [1] [1] [0] [0]

variable [Facts₀]

def dot_S2x4096x3_S2x4096x3_S2x4096x4096_2_2_1_1_0_0 : DotDims S2x4096x3 S2x4096x3 S2x4096x4096 where
  lhsContracting := [2]
  rhsContracting := [2]
  lhsNonContracting := [1]
  rhsNonContracting := [1]
  lhsBatch := [0]
  rhsBatch := [0]
  wf := dot_S2x4096x3_S2x4096x3_S2x4096x4096_2_2_1_1_0_0_wf
def dot_S2x4096x32_S2x4096x32_S2x4096x4096_2_2_1_1_0_0 : DotDims S2x4096x32 S2x4096x32 S2x4096x4096 where
  lhsContracting := [2]
  rhsContracting := [2]
  lhsNonContracting := [1]
  rhsNonContracting := [1]
  lhsBatch := [0]
  rhsBatch := [0]
  wf := dot_S2x4096x32_S2x4096x32_S2x4096x4096_2_2_1_1_0_0_wf

class Facts : Prop extends Facts₀ where

variable [Facts]
-- ==== Proof.FrBodyI.lean ====
/-
  The kernel's region, one grid point at a time, for any float family.

  Each of the 32 points is handed the query blocks of the points, of the first features and of the weights (128 rows
  each), and the whole key arrays of the points and of the second features; it stores one [2, 128] block of the
  output. The points' array is handed over twice, as a query block and whole as the keys: the two windows hold it
  at the two halves of its share and neither writes it. What a point leaves in the output window's buffer is the
  body's one stored value, a pure function of the five blocks it loaded; the input buffers are left as found.
-/
import proofs.«165683_j9474697855457_1_alg».proof.Proof.Gen.KernelIdeal.Launch
import proofs.«165683_j9474697855457_1_alg».proof.Proof.Gen.KernelIdeal.Skeleton
import proofs.«165683_j9474697855457_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point, fetched there or not (a key window is fetched
    once, at the first point, and its block index never moves), for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is loaded, or stored, whole -/

abbrev r0_0 : Rect S2x128x3 := Rect.unit (s := S2x128x3) ![0, 0, 0] S2x128x3.size inb_S2x128x3_S2x128x3_0_0_0
abbrev r0_1 : Rect S2x4096x3 := Rect.unit (s := S2x4096x3) ![0, 0, 0] S2x4096x3.size inb_S2x4096x3_S2x4096x3_0_0_0
abbrev r0_2 : Rect S2x128x32 := Rect.unit (s := S2x128x32) ![0, 0, 0] S2x128x32.size inb_S2x128x32_S2x128x32_0_0_0
abbrev r0_3 : Rect S2x4096x32 := Rect.unit (s := S2x4096x32) ![0, 0, 0] S2x4096x32.size inb_S2x4096x32_S2x4096x32_0_0_0
abbrev r0_4 : Rect S2x128x1 := Rect.unit (s := S2x128x1) ![0, 0, 0] S2x128x1.size inb_S2x128x1_S2x128x1_0_0_0
abbrev r0_5 : Rect S2x128 := Rect.unit (s := S2x128) ![0, 0] S2x128.size inb_S2x128_S2x128_0_0

/-- What the body leaves in the output window's buffer: its one store, of the value it computes from the five
    loaded blocks. -/
def out0_5 (x0 : Vec F S2x128x3 .f32) (x1 : Vec F S2x4096x3 .f32) (x2 : Vec F S2x128x32 .f32) (x3 : Vec F S2x4096x32 .f32)
    (x4 : Vec F S2x128x1 .f32) : Vec F S2x128 .f32 :=
  View.canon [⟨r0_5, k0_pay1 (View.ld x4 r0_4) (k0_pay2 (View.ld x0 r0_0) (View.ld x1 r0_1)) (k0_pay3 (View.ld x2 r0_2) (View.ld x3 r0_3))
    (k0_pay4 (View.ld x2 r0_2) (View.ld x3 r0_3))⟩]

/-- The one store covers the buffer. -/
theorem cover0_5 (p0 : Vec F S2x128 .f32) (y : S2x128.Idx) :
    ∃ pc ∈ ([⟨r0_5, p0⟩] : List (View.Piece (Elt F) S2x128 .f32)), y ∈ pc.1.set :=
  View.cover_of_tiled [⟨r0_5, p0⟩] S2x128.size (by rfl) y

/-! ## The body's triple -/

set_option maxHeartbeats 4000000 in
/-- The body on whole buffers, the five inputs' at read contents and the output's at anything, runs to the
    continuation holding the inputs' as they were and the output's at `out0_5` of the inputs'. -/
theorem sound_kernel0 (c : Dev nD) (E : Set ℕ) (i : grid0.Coords)
    (arg1 : Memref sig .tc .vmem S2x128x3 .f32) (harg1 : arg1.IsWhole) (arg2 : Memref sig .tc .vmem S2x4096x3 .f32) (harg2 : arg2.IsWhole)
    (arg3 : Memref sig .tc .vmem S2x128x32 .f32) (harg3 : arg3.IsWhole) (arg4 : Memref sig .tc .vmem S2x4096x32 .f32) (harg4 : arg4.IsWhole)
    (arg5 : Memref sig .tc .vmem S2x128x1 .f32) (harg5 : arg5.IsWhole) (arg6 : Memref sig .tc .vmem S2x128 .f32) (harg6 : arg6.IsWhole)
    (x0 : Vec F S2x128x3 .f32) (x1 : Vec F S2x4096x3 .f32) (x2 : Vec F S2x128x32 .f32) (x3 : Vec F S2x4096x32 .f32) (x4 : Vec F S2x128x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__loss_kernel i arg1 harg1 arg2 harg2 arg3 harg3 arg4 harg4 arg5 harg5 arg6 harg6) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data on core `c`: the arrays as the region finds them; after the body at point `t` each input's buffer
    at its block and the output's at `out0_5` of the input blocks; the invariant the scoped rest and the generator
    register, untouched; nothing owed. The points' array is held by its two windows at the two halves of the full
    share; every other array at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrRunI.lean ====
/-
  The kernel's program from launch to return, for any float family: the region, then the host lines after it.

  The core's unscoped buffers are followed through @main as a valuation: as launched; after the region, with the
  output array at what the 32 write-backs leave and everything else as launched; after the host lines, their
  results computed from that. At the region's entry the points' array, held whole, is dealt to its two windows at
  the two halves of its share, and at the exit the halves, still at the launch contents, are joined again.
-/
import proofs.«165683_j9474697855457_1_alg».proof.Proof.FrBodyI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One array on two windows: dealing the buffers to the windows and back -/

section Share

variable (V : (c : Dev nD) → (b : Ref sig .tc) → Buf (Elt F) ((c : Thread nD τ).loc b))

/-- The distinct buffers behind the windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_arg3) ↦{fullShare} W main_arg3)
          ∗ (((c : Thread nD τ).loc main_v0) ↦{fullShare} W main_v0)) := by
  unfold Pipeline.arrBufs
  exact bigSep_eq_bigSepL_of_eq [main_arg0, main_arg1, main_arg2, main_arg3, main_v0] (by decide) (by decide) _

/-- The proof data's arrays at contents read off a valuation, window by window: the points' array at the two
    halves of its share, every other array whole. -/
theorem arrays_eq (c : Dev nD) (W : (b : Ref sig .tc) → Buf (Elt F) ((c : Thread nD τ).loc b)) :
    ((dat0 V c).arrays (fun w => W (Pipeline.arrRef spec0 w)) : sProp 𝕄)
      = iprop((((c : Thread nD τ).loc main_arg0) ↦{fullShare.left} W main_arg0) ∗ (((c : Thread nD τ).loc main_arg0) ↦{fullShare.right} W main_arg0)
          ∗ (((c : Thread nD τ).loc main_arg1) ↦{fullShare} W main_arg1) ∗ (((c : Thread nD τ).loc main_arg2) ↦{fullShare} W main_arg2)
          ∗ (((c : Thread nD τ).loc main_arg3) ↦{fullShare} W main_arg3) ∗ (((c : Thread nD τ).loc main_v0) ↦{fullShare} W main_v0)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-- ENTRY: the buffers, each whole, make the windows' arrays. -/
theorem arrays_of_arrBufs (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      ⊢ (dat0 V c).arrays (fun w => W (Pipeline.arrRef spec0 w)) := by
  rw [arrBufs_eq, arrays_eq]
  iintro ⟨H0, H1, H2, H3, H4⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  iexact H4

/-- EXIT: the windows' arrays, the two halves at one contents, make the buffers whole again. -/
theorem arrBufs_of_arrays (c : Dev nD) (W : (b : Ref sig .tc) → Buf (Elt F) ((c : Thread nD τ).loc b)) :
    ((dat0 V c).arrays (fun w => W (Pipeline.arrRef spec0 w)) : sProp 𝕄)
      ⊢ Pipeline.arrBufs (Ix := Unit) (Name := ℕ) (U := UR sig nD τ) (Lvl := ℕ) spec0 c W := by
  rw [arrBufs_eq, arrays_eq]
  iintro ⟨H0l, H0r, H1, H2, H3, H4⟩
  isplitl [H0l H0r]
  · iapply (pointsTo_share (PosShare.mem_left_op_right fullShare)).2
    isplitl [H0l]; · iexact H0l
    iexact H0r
  isplitl [H1]; · iexact H1
  isplitl [H2]; · iexact H2
  isplitl [H3]; · iexact H3
  iexact H4

end Share

/-! # The run -/

variable (m : (ℓ : Loc nD τ sig) → Buf (Elt F) ℓ) (ρ : Dev nD → PrngReg)

/-- Core `c`'s buffers at launch, which is the region's entry: no host line comes before it. -/
abbrev W0 : Dev nD → Valuation τ sig (Elt F) := fun c b => (s₀ m ρ).mem ((c : Dev nD), b)
/-- The same read at the TensorCore's references. -/
abbrev V1 : (c : Dev nD) → (b : Ref sig .tc) → Buf (Elt F) ((c : Thread nD τ).loc b) := fun c b => W0 m ρ c b

open Classical in
/-- At the region's exit: the output array at what the write-backs leave, every other buffer as entered. -/
def W2 (c : Dev nD) : Valuation τ sig (Elt F) :=
  Function.update (W0 m ρ c) (Proc.devRef .tc main_v0) ((dat0 (V1 m ρ) c).arrAt 5 cfg0.N)

theorem W2_v0 (c : Dev nD) : W2 m ρ c (Proc.devRef .tc main_v0) = (dat0 (V1 m ρ) c).arrAt 5 cfg0.N := by
  unfold W2; exact Function.update_self _ _ _

theorem W2_of_ne (c : Dev nD) (b : Ref sig .tc) (hb : b ≠ main_v0) : W2 m ρ c (Proc.devRef .tc b) = W0 m ρ c (Proc.devRef .tc b) := by
  unfold W2; exact Function.update_of_ne (fun e => hb (Proc.devRef_injective _ e)) _ _

abbrev V2 : (c : Dev nD) → (b : Ref sig .tc) → Buf (Elt F) ((c : Thread nD τ).loc b) := fun c b => W2 m ρ c b

/-- At the exit every window's array holds what the pipeline leaves: an input array its entry contents, the output
    array its write-backs. -/
theorem hF0 (c : Dev nD) : ∀ w : Fin cfg0.W, (dat0 (V1 m ρ) c).arrAt w cfg0.N = V2 m ρ c (Pipeline.arrRef spec0 w)
  | ⟨0, _⟩ => ((dat0 (V1 m ρ) c).arrAt_in 0 rfl _).trans ((A_eq0 (V1 m ρ) c 0).trans (W2_of_ne m ρ c main_arg0 (by decide)).symm)
  | ⟨1, _⟩ => ((dat0 (V1 m ρ) c).arrAt_in 1 rfl _).trans ((A_eq0 (V1 m ρ) c 1).trans (W2_of_ne m ρ c main_arg0 (by decide)).symm)
  | ⟨2, _⟩ => ((dat0 (V1 m ρ) c).arrAt_in 2 rfl _).trans ((A_eq0 (V1 m ρ) c 2).trans (W2_of_ne m ρ c main_arg1 (by decide)).symm)
  | ⟨3, _⟩ => ((dat0 (V1 m ρ) c).arrAt_in 3 rfl _).trans ((A_eq0 (V1 m ρ) c 3).trans (W2_of_ne m ρ c main_arg2 (by decide)).symm)
  | ⟨4, _⟩ => ((dat0 (V1 m ρ) c).arrAt_in 4 rfl _).trans ((A_eq0 (V1 m ρ) c 4).trans (W2_of_ne m ρ c main_arg3 (by decide)).symm)
  | ⟨5, _⟩ => (W2_v0 m ρ c).symm

theorem hrest0 (c : Dev nD) : ∀ b, b ∉ Finset.univ.image (Pipeline.arrRef spec0) → V2 m ρ c b = V1 m ρ c b :=
  fun b hb => W2_of_ne m ρ c b fun e => hb (Finset.mem_image.mpr ⟨5, Finset.mem_univ _, e.symm⟩)

/-- After the host lines: the program's end. -/
abbrev W3 : Dev nD → Valuation τ sig (Elt F) := fun c => StableHlo.after hostOps1 (W2 m ρ c)

/-! ### The arguments end as launched: the region only reads them and no host line writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg0) := W2_of_ne m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg1) := W2_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg2) := W2_of_ne m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg3) := W2_of_ne m ρ c main_arg3 (by decide)
    _ = m ((c : Thread nD τ).loc main_arg3) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- A core's unscoped buffers are the buffers behind the windows' arrays and the rest, the arrays distinct or not. -/
theorem ub_split (c : Dev nD) (W : (b : Ref sig .tc) → Buf (Elt F) ((c : Thread nD τ).loc b)) :
    (unscopedBufs (Ix := Unit) (Name := ℕ) (U := UR sig nD τ) (Lvl := ℕ) c W : sProp 𝕄)
      = iprop((Pipeline.arrBufs spec0 c W : sProp 𝕄) ∗ Pipeline.unscopedRest spec0 c W) :=
  Pipeline.unscopedBufs_split₀ cfgs 0 winFacts₀0.arr_unscoped c W

set_option backward.isDefEq.respectTransparency.types false in
/-- The region over the thread state: entered from every unscoped buffer as launched, left with the output array
    written. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 0 c).arrays ((pdats m ρ 0 c).arrAt · 0) ∗ Pipeline.unscopedRest spec0 c (V1 m ρ c)) := by
      rw [ub_split]
      exact sep_mono (arrays_of_arrBufs (V1 m ρ) c (V1 m ρ c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs (Ix := Unit) (Name := ℕ) (U := UR sig nD τ) (Lvl := ℕ) c (V2 m ρ c) : sProp 𝕄) := by
      rw [ub_split]
      refine sep_mono ?_ (Entails.of_eq ?_)
      · rw [show ((pdats m ρ 0 c).arrAt · cfg0.N) = fun w => V2 m ρ c (Pipeline.arrRef spec0 w) from funext (hF0 m ρ c)]
        exact arrBufs_of_arrays (V1 m ρ) c (V2 m ρ c)
      · unfold Pipeline.unscopedRest
        exact bigSep_congr fun b hb => by rw [hrest0 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has each unscoped buffer of each core at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun c => by
      show iprop(StableHlo.held (c : Thread nD τ) (Pipeline.ucRefs τ sig) (StableHlo.after hostOps1 (W2 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Fr

end
-- ==== Proof.FrResI.lean ====
/-
  The kernel's two results read off the last valuation, for any float family: the first is the host's sum over the
  rows of the output array the region wrote; the second is the regularizer, computed by host lines from the two
  feature arrays alone.
-/
import proofs.«165683_j9474697855457_1_alg».proof.Proof.FrRunI

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL Idealize.SL.Sem

variable {F : FTy → Type} [FloatOps F] [Named F]
variable (m : (ℓ : Loc nD τ sig) → Buf (Elt F) ℓ) (ρ : Dev nD → PrngReg)

/-- The regularizer of the two feature arrays: the mean over the last 29 channels, then over the rows, of the sum of
    the two arrays' squares. -/
def reg (a1 a2 : (⟨S2x4096x32, .f32⟩ : BufTy).Contents (Elt F)) : (⟨S2, .f32⟩ : BufTy).Contents (Elt F) :=
  Host.divf (Host.reduceAdd (Host.divf (Host.reduceAdd (addf (mulf (extractStridedSlice S2x4096x29 ![0, 0, 3] a1 slices_S2x4096x32_S2x4096x29_0_0_3) (extractStridedSlice S2x4096x29 ![0, 0, 3] a1 slices_S2x4096x32_S2x4096x29_0_0_3)) (mulf (extractStridedSlice S2x4096x29 ![0, 0, 3] a2 slices_S2x4096x32_S2x4096x29_0_0_3) (extractStridedSlice S2x4096x29 ![0, 0, 3] a2 slices_S2x4096x32_S2x4096x29_0_0_3))) (constant S_ .f32 0x00000000#32) reducesTo_S2x4096x29_S2x4096_d2 h_S_) (broadcastInDim S2x4096 ![] bcast_S_S2x4096 (constant S_ .f32 0x41E80000#32))) (constant S_ .f32 0x00000000#32) reducesTo_S2x4096_S2_d1 h_S_) (broadcastInDim S2 ![] bcast_S_S2 (constant S_ .f32 0x45800000#32))

/-- The first result: the sum over the rows of what the region left in the output array. -/
theorem W3_main_v1 (c : Dev nD) :
    W3 m ρ c (Proc.devRef .tc main_v1)
      = Host.reduceAdd ((dat0 (V1 m ρ) c).arrAt 5 cfg0.N) (constant S_ .f32 0x00000000#32) reducesTo_S2x4096_S2_d1 h_S_ := by
  show StableHlo.after hostOps1 (W2 m ρ c) (Proc.devRef .tc main_v1) = _
  after_results
  rw [W2_v0]

/-- The second result: the regularizer of the launch contents of the two feature arrays. -/
theorem W3_main_v12 (c : Dev nD) :
    W3 m ρ c (Proc.devRef .tc main_v12) = reg (m ((c : Thread nD τ).loc main_arg1)) (m ((c : Thread nD τ).loc main_arg2)) := by
  show StableHlo.after hostOps1 (W2 m ρ c) (Proc.devRef .tc main_v12) = _
  after_results
  rw [W2_of_ne m ρ c main_arg1 (by decide), W2_of_ne m ρ c main_arg2 (by decide)]
  rfl

/-- The frame: every weakly fair execution ends, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run m ρ)

/-- The run with the two results named as well. -/
theorem run_results : θ_run defs (onTc (τ := τ) (main (F := F))) ⟨m, fun _ => 0, ρ⟩ (fun r => ∀ c : Dev nD,
      r.2.mem ((c.tc : Thread nD τ).loc main_v1) = W3 m ρ c (Proc.devRef .tc main_v1)
      ∧ r.2.mem ((c.tc : Thread nD τ).loc main_v12) = W3 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v1 (by decide)), h c _ (mem_uc main_v12 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run m ρ)

end Cert.KernelIdeal.Fr

end
-- ==== Proof.FrBodyB.lean ====
/-
  The kernel's region, one grid point at a time, for any float family.

  Each of the 32 points is handed the query blocks of the points, of the first features and of the weights (128 rows
  each), and the whole key arrays of the points and of the second features; it stores one [2, 128] block of the
  output. The points' array is handed over twice, as a query block and whole as the keys: the two windows hold it
  at the two halves of its share and neither writes it. What a point leaves in the output window's buffer is the
  body's one stored value, a pure function of the five blocks it loaded; the input buffers are left as found.
-/
import proofs.«165683_j9474697855457_1_alg».proof.Proof.Gen.Kernel.Launch
import proofs.«165683_j9474697855457_1_alg».proof.Proof.Gen.Kernel.Skeleton
import proofs.«165683_j9474697855457_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point, fetched there or not (a key window is fetched
    once, at the first point, and its block index never moves), for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is loaded, or stored, whole -/

abbrev r0_0 : Rect S2x128x3 := Rect.unit (s := S2x128x3) ![0, 0, 0] S2x128x3.size inb_S2x128x3_S2x128x3_0_0_0
abbrev r0_1 : Rect S2x4096x3 := Rect.unit (s := S2x4096x3) ![0, 0, 0] S2x4096x3.size inb_S2x4096x3_S2x4096x3_0_0_0
abbrev r0_2 : Rect S2x128x32 := Rect.unit (s := S2x128x32) ![0, 0, 0] S2x128x32.size inb_S2x128x32_S2x128x32_0_0_0
abbrev r0_3 : Rect S2x4096x32 := Rect.unit (s := S2x4096x32) ![0, 0, 0] S2x4096x32.size inb_S2x4096x32_S2x4096x32_0_0_0
abbrev r0_4 : Rect S2x128x1 := Rect.unit (s := S2x128x1) ![0, 0, 0] S2x128x1.size inb_S2x128x1_S2x128x1_0_0_0
abbrev r0_5 : Rect S2x128 := Rect.unit (s := S2x128) ![0, 0] S2x128.size inb_S2x128_S2x128_0_0

/-- What the body leaves in the output window's buffer: its one store, of the value it computes from the five
    loaded blocks. -/
def out0_5 (x0 : Vec F S2x128x3 .f32) (x1 : Vec F S2x4096x3 .f32) (x2 : Vec F S2x128x32 .f32) (x3 : Vec F S2x4096x32 .f32)
    (x4 : Vec F S2x128x1 .f32) : Vec F S2x128 .f32 :=
  View.canon [⟨r0_5, k0_pay1 (View.ld x4 r0_4) (k0_pay2 (View.ld x0 r0_0) (View.ld x1 r0_1)) (k0_pay3 (View.ld x2 r0_2) (View.ld x3 r0_3))
    (k0_pay4 (View.ld x2 r0_2) (View.ld x3 r0_3))⟩]

/-- The one store covers the buffer. -/
theorem cover0_5 (p0 : Vec F S2x128 .f32) (y : S2x128.Idx) :
    ∃ pc ∈ ([⟨r0_5, p0⟩] : List (View.Piece (Elt F) S2x128 .f32)), y ∈ pc.1.set :=
  View.cover_of_tiled [⟨r0_5, p0⟩] S2x128.size (by rfl) y

/-! ## The body's triple -/

set_option maxHeartbeats 4000000 in
/-- The body on whole buffers, the five inputs' at read contents and the output's at anything, runs to the
    continuation holding the inputs' as they were and the output's at `out0_5` of the inputs'. -/
theorem sound_kernel0 (c : Dev nD) (E : Set ℕ) (i : grid0.Coords)
    (arg1 : Memref sig .tc .vmem S2x128x3 .f32) (harg1 : arg1.IsWhole) (arg2 : Memref sig .tc .vmem S2x4096x3 .f32) (harg2 : arg2.IsWhole)
    (arg3 : Memref sig .tc .vmem S2x128x32 .f32) (harg3 : arg3.IsWhole) (arg4 : Memref sig .tc .vmem S2x4096x32 .f32) (harg4 : arg4.IsWhole)
    (arg5 : Memref sig .tc .vmem S2x128x1 .f32) (harg5 : arg5.IsWhole) (arg6 : Memref sig .tc .vmem S2x128 .f32) (harg6 : arg6.IsWhole)
    (x0 : Vec F S2x128x3 .f32) (x1 : Vec F S2x4096x3 .f32) (x2 : Vec F S2x128x32 .f32) (x3 : Vec F S2x4096x32 .f32) (x4 : Vec F S2x128x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__loss_kernel i arg1 harg1 arg2 harg2 arg3 harg3 arg4 harg4 arg5 harg5 arg6 harg6) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data on core `c`: the arrays as the region finds them; after the body at point `t` each input's buffer
    at its block and the output's at `out0_5` of the input blocks; the invariant the scoped rest and the generator
    register, untouched; nothing owed. The points' array is held by its two windows at the two halves of the full
    share; every other array at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrRunB.lean ====
/-
  The kernel's program from launch to return, for any float family: the region, then the host lines after it.

  The core's unscoped buffers are followed through @main as a valuation: as launched; after the region, with the
  output array at what the 32 write-backs leave and everything else as launched; after the host lines, their
  results computed from that. At the region's entry the points' array, held whole, is dealt to its two windows at
  the two halves of its share, and at the exit the halves, still at the launch contents, are joined again.
-/
import proofs.«165683_j9474697855457_1_alg».proof.Proof.FrBodyB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One array on two windows: dealing the buffers to the windows and back -/

section Share

variable (V : (c : Dev nD) → (b : Ref sig .tc) → Buf (Elt F) ((c : Thread nD τ).loc b))

/-- The distinct buffers behind the windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_arg3) ↦{fullShare} W main_arg3)
          ∗ (((c : Thread nD τ).loc main_v0) ↦{fullShare} W main_v0)) := by
  unfold Pipeline.arrBufs
  exact bigSep_eq_bigSepL_of_eq [main_arg0, main_arg1, main_arg2, main_arg3, main_v0] (by decide) (by decide) _

/-- The proof data's arrays at contents read off a valuation, window by window: the points' array at the two
    halves of its share, every other array whole. -/
theorem arrays_eq (c : Dev nD) (W : (b : Ref sig .tc) → Buf (Elt F) ((c : Thread nD τ).loc b)) :
    ((dat0 V c).arrays (fun w => W (Pipeline.arrRef spec0 w)) : sProp 𝕄)
      = iprop((((c : Thread nD τ).loc main_arg0) ↦{fullShare.left} W main_arg0) ∗ (((c : Thread nD τ).loc main_arg0) ↦{fullShare.right} W main_arg0)
          ∗ (((c : Thread nD τ).loc main_arg1) ↦{fullShare} W main_arg1) ∗ (((c : Thread nD τ).loc main_arg2) ↦{fullShare} W main_arg2)
          ∗ (((c : Thread nD τ).loc main_arg3) ↦{fullShare} W main_arg3) ∗ (((c : Thread nD τ).loc main_v0) ↦{fullShare} W main_v0)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-- ENTRY: the buffers, each whole, make the windows' arrays. -/
theorem arrays_of_arrBufs (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      ⊢ (dat0 V c).arrays (fun w => W (Pipeline.arrRef spec0 w)) := by
  rw [arrBufs_eq, arrays_eq]
  iintro ⟨H0, H1, H2, H3, H4⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H2]; · iexact H2
  isplitl [H3]; · iexact H3
  iexact H4

/-- EXIT: the windows' arrays, the two halves at one contents, make the buffers whole again. -/
theorem arrBufs_of_arrays (c : Dev nD) (W : (b : Ref sig .tc) → Buf (Elt F) ((c : Thread nD τ).loc b)) :
    ((dat0 V c).arrays (fun w => W (Pipeline.arrRef spec0 w)) : sProp 𝕄)
      ⊢ Pipeline.arrBufs (Ix := Unit) (Name := ℕ) (U := UR sig nD τ) (Lvl := ℕ) spec0 c W := by
  rw [arrBufs_eq, arrays_eq]
  iintro ⟨H0l, H0r, H1, H2, H3, H4⟩
  isplitl [H0l H0r]
  · iapply (pointsTo_share (PosShare.mem_left_op_right fullShare)).2
    isplitl [H0l]; · iexact H0l
    iexact H0r
  isplitl [H1]; · iexact H1
  isplitl [H2]; · iexact H2
  isplitl [H3]; · iexact H3
  iexact H4

end Share

/-! # The run -/

variable (m : (ℓ : Loc nD τ sig) → Buf (Elt F) ℓ) (ρ : Dev nD → PrngReg)

/-- Core `c`'s buffers at launch, which is the region's entry: no host line comes before it. -/
abbrev W0 : Dev nD → Valuation τ sig (Elt F) := fun c b => (s₀ m ρ).mem ((c : Dev nD), b)
/-- The same read at the TensorCore's references. -/
abbrev V1 : (c : Dev nD) → (b : Ref sig .tc) → Buf (Elt F) ((c : Thread nD τ).loc b) := fun c b => W0 m ρ c b

open Classical in
/-- At the region's exit: the output array at what the write-backs leave, every other buffer as entered. -/
def W2 (c : Dev nD) : Valuation τ sig (Elt F) :=
  Function.update (W0 m ρ c) (Proc.devRef .tc main_v0) ((dat0 (V1 m ρ) c).arrAt 5 cfg0.N)

theorem W2_v0 (c : Dev nD) : W2 m ρ c (Proc.devRef .tc main_v0) = (dat0 (V1 m ρ) c).arrAt 5 cfg0.N := by
  unfold W2; exact Function.update_self _ _ _

theorem W2_of_ne (c : Dev nD) (b : Ref sig .tc) (hb : b ≠ main_v0) : W2 m ρ c (Proc.devRef .tc b) = W0 m ρ c (Proc.devRef .tc b) := by
  unfold W2; exact Function.update_of_ne (fun e => hb (Proc.devRef_injective _ e)) _ _

abbrev V2 : (c : Dev nD) → (b : Ref sig .tc) → Buf (Elt F) ((c : Thread nD τ).loc b) := fun c b => W2 m ρ c b

/-- At the exit every window's array holds what the pipeline leaves: an input array its entry contents, the output
    array its write-backs. -/
theorem hF0 (c : Dev nD) : ∀ w : Fin cfg0.W, (dat0 (V1 m ρ) c).arrAt w cfg0.N = V2 m ρ c (Pipeline.arrRef spec0 w)
  | ⟨0, _⟩ => ((dat0 (V1 m ρ) c).arrAt_in 0 rfl _).trans ((A_eq0 (V1 m ρ) c 0).trans (W2_of_ne m ρ c main_arg0 (by decide)).symm)
  | ⟨1, _⟩ => ((dat0 (V1 m ρ) c).arrAt_in 1 rfl _).trans ((A_eq0 (V1 m ρ) c 1).trans (W2_of_ne m ρ c main_arg0 (by decide)).symm)
  | ⟨2, _⟩ => ((dat0 (V1 m ρ) c).arrAt_in 2 rfl _).trans ((A_eq0 (V1 m ρ) c 2).trans (W2_of_ne m ρ c main_arg1 (by decide)).symm)
  | ⟨3, _⟩ => ((dat0 (V1 m ρ) c).arrAt_in 3 rfl _).trans ((A_eq0 (V1 m ρ) c 3).trans (W2_of_ne m ρ c main_arg2 (by decide)).symm)
  | ⟨4, _⟩ => ((dat0 (V1 m ρ) c).arrAt_in 4 rfl _).trans ((A_eq0 (V1 m ρ) c 4).trans (W2_of_ne m ρ c main_arg3 (by decide)).symm)
  | ⟨5, _⟩ => (W2_v0 m ρ c).symm

theorem hrest0 (c : Dev nD) : ∀ b, b ∉ Finset.univ.image (Pipeline.arrRef spec0) → V2 m ρ c b = V1 m ρ c b :=
  fun b hb => W2_of_ne m ρ c b fun e => hb (Finset.mem_image.mpr ⟨5, Finset.mem_univ _, e.symm⟩)

/-- After the host lines: the program's end. -/
abbrev W3 : Dev nD → Valuation τ sig (Elt F) := fun c => StableHlo.after hostOps1 (W2 m ρ c)

/-! ### The arguments end as launched: the region only reads them and no host line writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg0) := W2_of_ne m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg1) := W2_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg2) := W2_of_ne m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg3) := W2_of_ne m ρ c main_arg3 (by decide)
    _ = m ((c : Thread nD τ).loc main_arg3) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- A core's unscoped buffers are the buffers behind the windows' arrays and the rest, the arrays distinct or not. -/
theorem ub_split (c : Dev nD) (W : (b : Ref sig .tc) → Buf (Elt F) ((c : Thread nD τ).loc b)) :
    (unscopedBufs (Ix := Unit) (Name := ℕ) (U := UR sig nD τ) (Lvl := ℕ) c W : sProp 𝕄)
      = iprop((Pipeline.arrBufs spec0 c W : sProp 𝕄) ∗ Pipeline.unscopedRest spec0 c W) :=
  Pipeline.unscopedBufs_split₀ cfgs 0 winFacts₀0.arr_unscoped c W

set_option backward.isDefEq.respectTransparency.types false in
/-- The region over the thread state: entered from every unscoped buffer as launched, left with the output array
    written. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 0 c).arrays ((pdats m ρ 0 c).arrAt · 0) ∗ Pipeline.unscopedRest spec0 c (V1 m ρ c)) := by
      rw [ub_split]
      exact sep_mono (arrays_of_arrBufs (V1 m ρ) c (V1 m ρ c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs (Ix := Unit) (Name := ℕ) (U := UR sig nD τ) (Lvl := ℕ) c (V2 m ρ c) : sProp 𝕄) := by
      rw [ub_split]
      refine sep_mono ?_ (Entails.of_eq ?_)
      · rw [show ((pdats m ρ 0 c).arrAt · cfg0.N) = fun w => V2 m ρ c (Pipeline.arrRef spec0 w) from funext (hF0 m ρ c)]
        exact arrBufs_of_arrays (V1 m ρ) c (V2 m ρ c)
      · unfold Pipeline.unscopedRest
        exact bigSep_congr fun b hb => by rw [hrest0 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has each unscoped buffer of each core at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun c => by
      show iprop(StableHlo.held (c : Thread nD τ) (Pipeline.ucRefs τ sig) (StableHlo.after hostOps1 (W2 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Fr

end
-- ==== Proof.FrResB.lean ====
/-
  The kernel's two results read off the last valuation, for any float family: the first is the host's sum over the
  rows of the output array the region wrote; the second is the regularizer, computed by host lines from the two
  feature arrays alone.
-/
import proofs.«165683_j9474697855457_1_alg».proof.Proof.FrRunB

set_option maxRecDepth 16384

noncomputable section

namespace Cert.Kernel.Fr

open Cert.Kernel Cert.Kernel.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The regularizer of the two feature arrays: the mean over the last 29 channels, then over the rows, of the sum of
    the two arrays' squares. -/
def reg (a1 a2 : (⟨S2x4096x32, .f32⟩ : BufTy).Contents (Elt F)) : (⟨S2, .f32⟩ : BufTy).Contents (Elt F) :=
  Host.divf (Host.reduceAdd (Host.divf (Host.reduceAdd (addf (mulf (extractStridedSlice S2x4096x29 ![0, 0, 3] a1 slices_S2x4096x32_S2x4096x29_0_0_3) (extractStridedSlice S2x4096x29 ![0, 0, 3] a1 slices_S2x4096x32_S2x4096x29_0_0_3)) (mulf (extractStridedSlice S2x4096x29 ![0, 0, 3] a2 slices_S2x4096x32_S2x4096x29_0_0_3) (extractStridedSlice S2x4096x29 ![0, 0, 3] a2 slices_S2x4096x32_S2x4096x29_0_0_3))) (constant S_ .f32 0x00000000#32) reducesTo_S2x4096x29_S2x4096_d2 h_S_) (broadcastInDim S2x4096 ![] bcast_S_S2x4096 (constant S_ .f32 0x41E80000#32))) (constant S_ .f32 0x00000000#32) reducesTo_S2x4096_S2_d1 h_S_) (broadcastInDim S2 ![] bcast_S_S2 (constant S_ .f32 0x45800000#32))

/-- The first result: the sum over the rows of what the region left in the output array. -/
theorem W3_main_v1 (c : Dev nD) :
    W3 m ρ c (Proc.devRef .tc main_v1)
      = Host.reduceAdd ((dat0 (V1 m ρ) c).arrAt 5 cfg0.N) (constant S_ .f32 0x00000000#32) reducesTo_S2x4096_S2_d1 h_S_ := by
  show StableHlo.after hostOps1 (W2 m ρ c) (Proc.devRef .tc main_v1) = _
  after_results
  rw [W2_v0]

/-- The second result: the regularizer of the launch contents of the two feature arrays. -/
theorem W3_main_v12 (c : Dev nD) :
    W3 m ρ c (Proc.devRef .tc main_v12) = reg (m ((c : Thread nD τ).loc main_arg1)) (m ((c : Thread nD τ).loc main_arg2)) := by
  show StableHlo.after hostOps1 (W2 m ρ c) (Proc.devRef .tc main_v12) = _
  after_results
  rw [W2_of_ne m ρ c main_arg1 (by decide), W2_of_ne m ρ c main_arg2 (by decide)]
  rfl

/-- The frame: every weakly fair execution ends, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run m ρ)

/-- The run with the two results named as well. -/
theorem run_results : θ_run defs (onTc (τ := τ) (main (F := F))) ⟨m, fun _ => 0, ρ⟩ (fun r => ∀ c : Dev nD,
      r.2.mem ((c.tc : Thread nD τ).loc main_v1) = W3 m ρ c (Proc.devRef .tc main_v1)
      ∧ r.2.mem ((c.tc : Thread nD τ).loc main_v12) = W3 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v1 (by decide)), h c _ (mem_uc main_v12 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run m ρ)

end Cert.Kernel.Fr

end
-- ==== Proof.Spec.lean ====
/-
  What both programs compute, stated once over the extended reals and over plain index types.

  For a batch `b` and a query row `n` the two programs form two rows of negated squared distances over the
  4096 keys `j`: `pd j = -(|s·P n|² + |s·P j|² - 2 (s·P n)·(s·P j))` of the scaled points (`s` the reciprocal of the
  reference's divisor) and `fd j = -(|A n|² + |B j|² - 2 A n · B j)` of the two feature arrays. With `M` a row's
  maximum, `e j = exp (pd j - M_p)`, `l_p = ∑ e`, `l_f = ∑ exp (fd j - M_f)`:

  * the kernel forms `-(∑ e j · fd j) / l_p + M_f + log l_f` (`ceK`);
  * the reference forms `-∑ exp ((pd j - M_p) - log l_p) · ((fd j - M_f) - log l_f)` (`ceR`), the cross entropy of
    the two row softmaxes written through `log_softmax`.

  Both are then multiplied by the row's weight. The two forms agree on rows of real numbers (`Proof/Law.lean`).
-/
import Idealize.ShloMosaic.PureOps.Ideal

noncomputable section

namespace Cert.Spec

open Idealize.ShloMosaic

/-- The scale of the points: the exact reciprocal of the reference's divisor `5368709 / 2^30`. -/
def kap : EReal := ((1073741824 / 5368709 : ℝ) : EReal)

/-- A row's squared norm. -/
def sqn {n : ℕ} (x : Fin n → EReal) : EReal := ∑ d, x d * x d

/-- The inner product of two rows. -/
def dotp {n : ℕ} (x y : Fin n → EReal) : EReal := ∑ d, x d * y d

/-- Minus the squared distance of two rows, by the expansion both programs use. -/
def negd {n : ℕ} (x y : Fin n → EReal) : EReal := -((sqn x + sqn y) - 2 * dotp x y)

/-- A row's maximum, as a fold from `-∞`. -/
def rowMax {N : ℕ} (f : Fin N → EReal) : EReal := (Finset.univ : Finset (Fin N)).fold max ⊥ f

/-- The kernel's row value: `-(S / l_p) + M_f + log l_f`. -/
def ceK {N : ℕ} (pd fd : Fin N → EReal) : EReal :=
  (-(Ideal.div (∑ j, Ideal.exp (pd j - rowMax pd) * fd j) (∑ j, Ideal.exp (pd j - rowMax pd))) + rowMax fd)
    + Ideal.log (∑ j, Ideal.exp (fd j - rowMax fd))

/-- The reference's row value: minus the sum of `softmax pd` against `log_softmax fd`. -/
def ceR {N : ℕ} (pd fd : Fin N → EReal) : EReal :=
  -(∑ j, Ideal.exp ((pd j - rowMax pd) - Ideal.log (∑ k, Ideal.exp (pd k - rowMax pd)))
        * ((fd j - rowMax fd) - Ideal.log (∑ k, Ideal.exp (fd k - rowMax fd))))

variable (P : Fin 2 → Fin 4096 → Fin 3 → EReal) (A B : Fin 2 → Fin 4096 → Fin 32 → EReal) (Wt : Fin 2 → Fin 4096 → EReal)

/-- A scaled point. -/
def sp (b : Fin 2) (i : Fin 4096) : Fin 3 → EReal := fun d => P b i d * kap

/-- Row `n` of the points' distances. -/
def pdRow (b : Fin 2) (n : Fin 4096) : Fin 4096 → EReal := fun j => negd (sp P b n) (sp P b j)

/-- Row `n` of the features' distances. -/
def fdRow (b : Fin 2) (n : Fin 4096) : Fin 4096 → EReal := fun j => negd (A b n) (B b j)

/-- The kernel's weighted row value. -/
def GK (b : Fin 2) (n : Fin 4096) : EReal := ceK (pdRow P b n) (fdRow A B b n) * Wt b n

/-- The reference's weighted row value. -/
def GR (b : Fin 2) (n : Fin 4096) : EReal := ceR (pdRow P b n) (fdRow A B b n) * Wt b n

end Cert.Spec

end
-- ==== Proof.KernelValue.lean ====
/-
  The kernel body's stored value read at an entry, at the ideal values.

  The body stores one [2, 128] block: entry (b, r) is the kernel's row form `ceK` of the point distances of query row
  `r` of the query block against every key row of the key array, and of the feature distances likewise, times the
  row's weight. The lane sums are finite sums, the two matrix products into a zero accumulator are inner products,
  the lane maxima are folds of `max` from `-∞`, and the keepdims casts and broadcasts only re-index.
-/
import proofs.«165683_j9474697855457_1_alg».proof.Proof.Gen.KernelIdeal.Skeleton
import proofs.«165683_j9474697855457_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Idealize.ShloMosaic Cert.KernelIdeal Cert.KernelIdeal.Gen ValueIdx

/-- The named scale denotes the reciprocal of the reference's divisor. -/
theorem named_kap : Named.named (F := Ideal) Cert.KernelIdeal.κ "inv_sigma" (φ := .f32) 0x43480000#32 = Cert.Spec.kap :=
  IdealRules.named_const.ideal_named_scalar _ _ _ _ rfl

/-- The word of `2.0` denotes the extended real `2`. -/
private theorem ofBits_two : Ideal.ofBits .f32 0x40000000#32 = (2 : EReal) := by
  have h : Ideal.ofBits .f32 0x40000000#32 = ((2 : ℝ) : EReal) := by
    simp [Ideal.ofBits, Ideal.ieee, -EReal.coe_mul]; norm_num
  exact h.trans (by norm_cast)

/-- The word of `-∞`, from which a lane maximum starts, denotes `⊥`. -/
private theorem ofBits_negInf : Ideal.ofBits .f32 0xFF800000#32 = (⊥ : EReal) := by
  simp [Ideal.ofBits, Ideal.ieee]

/-! ## The keepdims casts and broadcasts, read at coordinates -/

section Layout
variable {α : Type}

/-- An `[a, b]` array viewed as `[a, b, 1]` reads, at `(p, q, u)`, the array at `(p, q)`. -/
private theorem cast_col {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, c]` array viewed as `[a, 1, c]` reads, at `(p, u, j)`, the array at `(p, j)`. -/
private theorem cast_row {a c : ℕ} (x : (⟨2, ![a, c]⟩ : Shape).Idx → α) (h : (⟨2, ![a, c]⟩ : Shape).ShapeCasts ⟨3, ![a, 1, c]⟩)
    (p : Fin a) (u : Fin 1) (j : Fin c) : shapeCast ⟨3, ![a, 1, c]⟩ x h (ix3 p u j) = x (ix2 p j) :=
  shapeCast_apply x h _ _ (by
    have hu : u.val = 0 := by omega
    rw [Shape.rowMajor_val_three, Shape.rowMajor_val_two]
    show p.val * c + j.val = (p.val * 1 + u.val) * c + j.val
    rw [hu, Nat.mul_one, Nat.add_zero])

/-- An `[a, b, 1]` array viewed as `[a, b]` reads, at `(p, q)`, the array at `(p, q, 0)`. -/
private theorem cast_drop {a b : ℕ} (x : (⟨3, ![a, b, 1]⟩ : Shape).Idx → α) (h : (⟨3, ![a, b, 1]⟩ : Shape).ShapeCasts ⟨2, ![a, b]⟩)
    (p : Fin a) (q : Fin b) : shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    rw [Nat.mul_one, Nat.add_zero])

/-- An `[a, b, 1]` array broadcast to `[a, b, c]` reads, at `(p, q, j)`, the array at `(p, q, 0)`. -/
private theorem bcast_col {a b c : ℕ} (x : (⟨3, ![a, b, 1]⟩ : Shape).Idx → α) (h : (⟨3, ![a, b, 1]⟩ : Shape).Broadcasts ⟨3, ![a, b, c]⟩)
    (p : Fin a) (q : Fin b) (j : Fin c) : broadcastTo ⟨3, ![a, b, c]⟩ x h (ix3 p q j) = x (ix3 p q (0 : Fin 1)) := by
  refine broadcastTo_apply x h (ix3 p q j) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, 1, c]` array broadcast to `[a, b, c]` reads, at `(p, q, j)`, the array at `(p, 0, j)`. -/
private theorem bcast_row {a b c : ℕ} (x : (⟨3, ![a, 1, c]⟩ : Shape).Idx → α) (h : (⟨3, ![a, 1, c]⟩ : Shape).Broadcasts ⟨3, ![a, b, c]⟩)
    (p : Fin a) (q : Fin b) (j : Fin c) : broadcastTo ⟨3, ![a, b, c]⟩ x h (ix3 p q j) = x (ix3 p (0 : Fin 1) j) := by
  refine broadcastTo_apply x h (ix3 p q j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if c = 1 then 0 else j.val
    split
    · have := j.isLt; omega
    · rfl

end Layout

/-! ## The lane reductions, read at coordinates -/

/-- The sum of an `[a, b, n]` array along its last axis reads, at `(p, q)`, the sum over `k` of the entries `(p, q, k)`. -/
private theorem laneSum_apply {a b n : ℕ} (src : FVec Ideal ⟨3, ![a, b, n]⟩ .f32) (h : (⟨3, ![a, b, n]⟩ : Shape).Reduces [2] ⟨2, ![a, b]⟩)
    (hφ : FKind.Formats FTy.f32) (hacc : (0x00000000#32 : BitVec FTy.f32.bits) = 0x00000000#32) (p : Fin a) (q : Fin b) :
    multiReduction (F := Ideal) .add [2] ⟨2, ![a, b]⟩ src 0x00000000#32 h hφ hacc (ix2 p q) = ∑ k : Fin n, src (ix3 p q k) :=
  (Ideal.multiReduction_add_single src 0x00000000#32 h hφ hacc (ix2 p q)).trans
    (Finset.sum_congr rfl fun k _ => congrArg src (funext fun ax => Fin.ext (by
      match ax with
      | ⟨0, _⟩ => rfl
      | ⟨1, _⟩ => rfl
      | ⟨2, _⟩ => rfl)))

/-- The maximum of an `[a, b, n]` array along its last axis, started from `-∞`, reads, at `(p, q)`, the fold of `max`
    from `⊥` over the entries `(p, q, k)`. -/
private theorem laneMax_apply {a b n : ℕ} (src : FVec Ideal ⟨3, ![a, b, n]⟩ .f32) (h : (⟨3, ![a, b, n]⟩ : Shape).Reduces [2] ⟨2, ![a, b]⟩)
    (hφ : FKind.Formats FTy.f32) (hacc : (0xFF800000#32 : BitVec FTy.f32.bits) = 0xFF800000#32) (p : Fin a) (q : Fin b) :
    multiReduction (F := Ideal) .maximumf [2] ⟨2, ![a, b]⟩ src 0xFF800000#32 h hφ hacc (ix2 p q)
      = (Finset.univ : Finset (Fin n)).fold max ⊥ (fun k => src (ix3 p q k)) := by
  rw [Ideal.multiReduction_maximumf_single src 0xFF800000#32 h hφ hacc (ix2 p q)]
  show (Finset.univ : Finset (Fin n)).fold max (Ideal.ofBits .f32 0xFF800000#32) _ = _
  rw [ofBits_negInf]
  refine congrArg (fun f => Finset.fold max ⊥ f Finset.univ) (funext fun k => ?_)
  show src _ = src _
  exact congrArg src (funext fun ax => Fin.ext (by
      match ax with
      | ⟨0, _⟩ => rfl
      | ⟨1, _⟩ => rfl
      | ⟨2, _⟩ => rfl))

/-! ## The two matrix products into a zero block, read at coordinates -/

/-! The operand indices of the 3-term matrix product, axis by axis. -/
private theorem lhs_mmP_0 (i : S2x128x4096.Idx) (q : dot_S2x128x3_S2x4096x3_S2x128x4096_2_2_1_1_0_0.contr.Idx) :
    (dot_S2x128x3_S2x4096x3_S2x128x4096_2_2_1_1_0_0.lhsIdx i q 0).val = (i 0).val := by
  unfold DotDims.lhsIdx
  rw [dif_pos (show (0 : Fin S2x128x3.rank) ∈ dot_S2x128x3_S2x4096x3_S2x128x4096_2_2_1_1_0_0.lhsBatch by decide)]
  rfl
private theorem lhs_mmP_1 (i : S2x128x4096.Idx) (q : dot_S2x128x3_S2x4096x3_S2x128x4096_2_2_1_1_0_0.contr.Idx) :
    (dot_S2x128x3_S2x4096x3_S2x128x4096_2_2_1_1_0_0.lhsIdx i q 1).val = (i 1).val := by
  unfold DotDims.lhsIdx
  rw [dif_neg (show ¬(1 : Fin S2x128x3.rank) ∈ dot_S2x128x3_S2x4096x3_S2x128x4096_2_2_1_1_0_0.lhsBatch by decide), dif_pos (show (1 : Fin S2x128x3.rank) ∈ dot_S2x128x3_S2x4096x3_S2x128x4096_2_2_1_1_0_0.lhsNonContracting by decide)]
  rfl
private theorem lhs_mmP_2 (i : S2x128x4096.Idx) (q : dot_S2x128x3_S2x4096x3_S2x128x4096_2_2_1_1_0_0.contr.Idx) :
    (dot_S2x128x3_S2x4096x3_S2x128x4096_2_2_1_1_0_0.lhsIdx i q 2).val = (q ⟨0, by decide⟩).val :=
  dot_S2x128x3_S2x4096x3_S2x128x4096_2_2_1_1_0_0.lhsIdx_val_of_single rfl i q
private theorem rhs_mmP_0 (i : S2x128x4096.Idx) (q : dot_S2x128x3_S2x4096x3_S2x128x4096_2_2_1_1_0_0.contr.Idx) :
    (dot_S2x128x3_S2x4096x3_S2x128x4096_2_2_1_1_0_0.rhsIdx i q 0).val = (i 0).val := by
  unfold DotDims.rhsIdx
  rw [dif_pos (show (0 : Fin S2x4096x3.rank) ∈ dot_S2x128x3_S2x4096x3_S2x128x4096_2_2_1_1_0_0.rhsBatch by decide)]
  rfl
private theorem rhs_mmP_1 (i : S2x128x4096.Idx) (q : dot_S2x128x3_S2x4096x3_S2x128x4096_2_2_1_1_0_0.contr.Idx) :
    (dot_S2x128x3_S2x4096x3_S2x128x4096_2_2_1_1_0_0.rhsIdx i q 1).val = (i 2).val := by
  unfold DotDims.rhsIdx
  rw [dif_neg (show ¬(1 : Fin S2x4096x3.rank) ∈ dot_S2x128x3_S2x4096x3_S2x128x4096_2_2_1_1_0_0.rhsBatch by decide), dif_pos (show (1 : Fin S2x4096x3.rank) ∈ dot_S2x128x3_S2x4096x3_S2x128x4096_2_2_1_1_0_0.rhsNonContracting by decide)]
  rfl
private theorem rhs_mmP_2 (i : S2x128x4096.Idx) (q : dot_S2x128x3_S2x4096x3_S2x128x4096_2_2_1_1_0_0.contr.Idx) :
    (dot_S2x128x3_S2x4096x3_S2x128x4096_2_2_1_1_0_0.rhsIdx i q 2).val = (q ⟨0, by decide⟩).val :=
  dot_S2x128x3_S2x4096x3_S2x128x4096_2_2_1_1_0_0.rhsIdx_val_of_single rfl i q

/-- The matrix product into the zero block, at (b, r, j): the inner product over the 3 contracted coordinates of row
    r of the left block with row j of the right block, in batch b. -/
private theorem mmP_apply (x : FVec Ideal S2x128x3 .f32) (y : FVec Ideal S2x4096x3 .f32) (b : Fin 2) (r : Fin 128) (j : Fin 4096) :
    matmul (F := Ideal) dot_S2x128x3_S2x4096x3_S2x128x4096_2_2_1_1_0_0 none x y (constant (F := Ideal) S2x128x4096 .f32 0x00000000#32) (ix3 b r j)
      = ∑ d : Fin 3, x (ix3 b r d) * y (ix3 b j d) := by
  simp only [matmul]
  rw [Ideal.matmul_constant_zero_apply, ← Equiv.sum_comp (ValueIdx.contrEquiv1 dot_S2x128x3_S2x4096x3_S2x128x4096_2_2_1_1_0_0 3 rfl rfl).symm]
  refine Finset.sum_congr rfl fun k _ => ?_
  have hk := ValueIdx.contrEquiv1_symm_val dot_S2x128x3_S2x4096x3_S2x128x4096_2_2_1_1_0_0 3 rfl rfl k
  have el : dot_S2x128x3_S2x4096x3_S2x128x4096_2_2_1_1_0_0.lhsIdx (ix3 b r j) ((ValueIdx.contrEquiv1 dot_S2x128x3_S2x4096x3_S2x128x4096_2_2_1_1_0_0 3 rfl rfl).symm k) = ix3 b r k := funext fun a => Fin.ext (by
    match a with
    | ⟨0, _⟩ => exact lhs_mmP_0 _ _
    | ⟨1, _⟩ => exact lhs_mmP_1 _ _
    | ⟨2, _⟩ => exact (lhs_mmP_2 _ _).trans hk)
  have er : dot_S2x128x3_S2x4096x3_S2x128x4096_2_2_1_1_0_0.rhsIdx (ix3 b r j) ((ValueIdx.contrEquiv1 dot_S2x128x3_S2x4096x3_S2x128x4096_2_2_1_1_0_0 3 rfl rfl).symm k) = ix3 b j k := funext fun a => Fin.ext (by
    match a with
    | ⟨0, _⟩ => exact rhs_mmP_0 _ _
    | ⟨1, _⟩ => exact rhs_mmP_1 _ _
    | ⟨2, _⟩ => exact (rhs_mmP_2 _ _).trans hk)
  rw [el, er]

/-! The operand indices of the 32-term matrix product, axis by axis. -/
private theorem lhs_mmF_0 (i : S2x128x4096.Idx) (q : dot_S2x128x32_S2x4096x32_S2x128x4096_2_2_1_1_0_0.contr.Idx) :
    (dot_S2x128x32_S2x4096x32_S2x128x4096_2_2_1_1_0_0.lhsIdx i q 0).val = (i 0).val := by
  unfold DotDims.lhsIdx
  rw [dif_pos (show (0 : Fin S2x128x32.rank) ∈ dot_S2x128x32_S2x4096x32_S2x128x4096_2_2_1_1_0_0.lhsBatch by decide)]
  rfl
private theorem lhs_mmF_1 (i : S2x128x4096.Idx) (q : dot_S2x128x32_S2x4096x32_S2x128x4096_2_2_1_1_0_0.contr.Idx) :
    (dot_S2x128x32_S2x4096x32_S2x128x4096_2_2_1_1_0_0.lhsIdx i q 1).val = (i 1).val := by
  unfold DotDims.lhsIdx
  rw [dif_neg (show ¬(1 : Fin S2x128x32.rank) ∈ dot_S2x128x32_S2x4096x32_S2x128x4096_2_2_1_1_0_0.lhsBatch by decide), dif_pos (show (1 : Fin S2x128x32.rank) ∈ dot_S2x128x32_S2x4096x32_S2x128x4096_2_2_1_1_0_0.lhsNonContracting by decide)]
  rfl
private theorem lhs_mmF_2 (i : S2x128x4096.Idx) (q : dot_S2x128x32_S2x4096x32_S2x128x4096_2_2_1_1_0_0.contr.Idx) :
    (dot_S2x128x32_S2x4096x32_S2x128x4096_2_2_1_1_0_0.lhsIdx i q 2).val = (q ⟨0, by decide⟩).val :=
  dot_S2x128x32_S2x4096x32_S2x128x4096_2_2_1_1_0_0.lhsIdx_val_of_single rfl i q
private theorem rhs_mmF_0 (i : S2x128x4096.Idx) (q : dot_S2x128x32_S2x4096x32_S2x128x4096_2_2_1_1_0_0.contr.Idx) :
    (dot_S2x128x32_S2x4096x32_S2x128x4096_2_2_1_1_0_0.rhsIdx i q 0).val = (i 0).val := by
  unfold DotDims.rhsIdx
  rw [dif_pos (show (0 : Fin S2x4096x32.rank) ∈ dot_S2x128x32_S2x4096x32_S2x128x4096_2_2_1_1_0_0.rhsBatch by decide)]
  rfl
private theorem rhs_mmF_1 (i : S2x128x4096.Idx) (q : dot_S2x128x32_S2x4096x32_S2x128x4096_2_2_1_1_0_0.contr.Idx) :
    (dot_S2x128x32_S2x4096x32_S2x128x4096_2_2_1_1_0_0.rhsIdx i q 1).val = (i 2).val := by
  unfold DotDims.rhsIdx
  rw [dif_neg (show ¬(1 : Fin S2x4096x32.rank) ∈ dot_S2x128x32_S2x4096x32_S2x128x4096_2_2_1_1_0_0.rhsBatch by decide), dif_pos (show (1 : Fin S2x4096x32.rank) ∈ dot_S2x128x32_S2x4096x32_S2x128x4096_2_2_1_1_0_0.rhsNonContracting by decide)]
  rfl
private theorem rhs_mmF_2 (i : S2x128x4096.Idx) (q : dot_S2x128x32_S2x4096x32_S2x128x4096_2_2_1_1_0_0.contr.Idx) :
    (dot_S2x128x32_S2x4096x32_S2x128x4096_2_2_1_1_0_0.rhsIdx i q 2).val = (q ⟨0, by decide⟩).val :=
  dot_S2x128x32_S2x4096x32_S2x128x4096_2_2_1_1_0_0.rhsIdx_val_of_single rfl i q

/-- The matrix product into the zero block, at (b, r, j): the inner product over the 32 contracted coordinates of row
    r of the left block with row j of the right block, in batch b. -/
private theorem mmF_apply (x : FVec Ideal S2x128x32 .f32) (y : FVec Ideal S2x4096x32 .f32) (b : Fin 2) (r : Fin 128) (j : Fin 4096) :
    matmul (F := Ideal) dot_S2x128x32_S2x4096x32_S2x128x4096_2_2_1_1_0_0 none x y (constant (F := Ideal) S2x128x4096 .f32 0x00000000#32) (ix3 b r j)
      = ∑ d : Fin 32, x (ix3 b r d) * y (ix3 b j d) := by
  simp only [matmul]
  rw [Ideal.matmul_constant_zero_apply, ← Equiv.sum_comp (ValueIdx.contrEquiv1 dot_S2x128x32_S2x4096x32_S2x128x4096_2_2_1_1_0_0 32 rfl rfl).symm]
  refine Finset.sum_congr rfl fun k _ => ?_
  have hk := ValueIdx.contrEquiv1_symm_val dot_S2x128x32_S2x4096x32_S2x128x4096_2_2_1_1_0_0 32 rfl rfl k
  have el : dot_S2x128x32_S2x4096x32_S2x128x4096_2_2_1_1_0_0.lhsIdx (ix3 b r j) ((ValueIdx.contrEquiv1 dot_S2x128x32_S2x4096x32_S2x128x4096_2_2_1_1_0_0 32 rfl rfl).symm k) = ix3 b r k := funext fun a => Fin.ext (by
    match a with
    | ⟨0, _⟩ => exact lhs_mmF_0 _ _
    | ⟨1, _⟩ => exact lhs_mmF_1 _ _
    | ⟨2, _⟩ => exact (lhs_mmF_2 _ _).trans hk)
  have er : dot_S2x128x32_S2x4096x32_S2x128x4096_2_2_1_1_0_0.rhsIdx (ix3 b r j) ((ValueIdx.contrEquiv1 dot_S2x128x32_S2x4096x32_S2x128x4096_2_2_1_1_0_0 32 rfl rfl).symm k) = ix3 b j k := funext fun a => Fin.ext (by
    match a with
    | ⟨0, _⟩ => exact rhs_mmF_0 _ _
    | ⟨1, _⟩ => exact rhs_mmF_1 _ _
    | ⟨2, _⟩ => exact (rhs_mmF_2 _ _).trans hk)
  rw [el, er]

/-! ## The four payloads at coordinates -/

/-- The exponential of a block, entry by entry. -/
private theorem vexp_apply {s : Shape} {φ : FTy} (a : FVec Ideal s φ) (i : s.Idx) : exp a i = Ideal.exp (a i) := rfl
/-- The logarithm of a block, entry by entry. -/
private theorem vlog_apply {s : Shape} {φ : FTy} (a : FVec Ideal s φ) (i : s.Idx) : log a i = Ideal.log (a i) := rfl

/-- The inner products of the feature rows, at (b, r, j). -/
private theorem pay3_apply (v6 : Vec Ideal S2x128x32 .f32) (v7 : Vec Ideal S2x4096x32 .f32) (b : Fin 2) (r : Fin 128) (j : Fin 4096) :
    k0_pay3 (F := Ideal) v6 v7 (ix3 b r j)
      = Cert.Spec.dotp (fun d : Fin 32 => v6 (ix3 b r d)) (fun d : Fin 32 => v7 (ix3 b j d)) := by
  unfold k0_pay3
  exact mmF_apply v6 v7 b r j

/-- The sums of the two feature rows' squared norms, at (b, r, j). -/
private theorem pay4_apply (v6 : Vec Ideal S2x128x32 .f32) (v7 : Vec Ideal S2x4096x32 .f32) (b : Fin 2) (r : Fin 128) (j : Fin 4096) :
    k0_pay4 (F := Ideal) v6 v7 (ix3 b r j)
      = Cert.Spec.sqn (fun d : Fin 32 => v6 (ix3 b r d)) + Cert.Spec.sqn (fun d : Fin 32 => v7 (ix3 b j d)) := by
  unfold k0_pay4
  simp -index only [addf_apply, bcast_col, bcast_row, cast_col, cast_row, laneSum_apply, mulf_apply]
  rfl

/-- Minus the squared distance of the scaled points, at (b, r, j). -/
private theorem pay2_apply (v0 : Vec Ideal S2x128x3 .f32) (v3 : Vec Ideal S2x4096x3 .f32) (b : Fin 2) (r : Fin 128) (j : Fin 4096) :
    k0_pay2 (F := Ideal) v0 v3 (ix3 b r j)
      = Cert.Spec.negd (fun d : Fin 3 => v0 (ix3 b r d) * Cert.Spec.kap) (fun d : Fin 3 => v3 (ix3 b j d) * Cert.Spec.kap) := by
  unfold k0_pay2
  simp -index only [subf_apply, addf_apply, mulf_apply, broadcast_apply, bcast_col, bcast_row, cast_col, cast_row, laneSum_apply,
    mmP_apply, named_kap, Scalar.ofBits, Ideal.ofBits_def, ofBits_two, Ideal.ofBits_zero_f32, zero_sub]
  rfl

/-- The stored block at (b, r) from any three [2, 128, 4096] blocks: the kernel's row form of the first block's row
    against minus (the third block's row less twice the second's), times the weight. -/
private theorem pay1_apply (v8 : Vec Ideal S2x128x1 .f32) (v23 v30 v33 : FVec Ideal S2x128x4096 .f32) (b : Fin 2) (r : Fin 128) :
    k0_pay1 (F := Ideal) v8 v23 v30 v33 (ix2 b r)
      = Cert.Spec.ceK (fun j : Fin 4096 => v23 (ix3 b r j)) (fun j : Fin 4096 => -(v33 (ix3 b r j) - 2 * v30 (ix3 b r j)))
        * v8 (ix3 b r 0) := by
  unfold k0_pay1
  simp -index only [subf_apply, addf_apply, mulf_apply, divf_apply, vexp_apply, vlog_apply, broadcast_apply, bcast_col, cast_col,
    cast_drop, laneSum_apply, laneMax_apply, Scalar.ofBits, Ideal.ofBits_def, ofBits_two, Ideal.ofBits_zero_f32, zero_sub]
  rfl

/-- The stored block at entry (b, r), from the five loaded blocks. -/
theorem pay_apply (v0 : Vec Ideal S2x128x3 .f32) (v3 : Vec Ideal S2x4096x3 .f32) (v6 : Vec Ideal S2x128x32 .f32)
    (v7 : Vec Ideal S2x4096x32 .f32) (v8 : Vec Ideal S2x128x1 .f32) (b : Fin 2) (r : Fin 128) :
    k0_pay1 (F := Ideal) v8 (k0_pay2 (F := Ideal) v0 v3) (k0_pay3 (F := Ideal) v6 v7) (k0_pay4 (F := Ideal) v6 v7) (ix2 b r)
      = Cert.Spec.ceK
          (fun j : Fin 4096 => Cert.Spec.negd (fun d : Fin 3 => v0 (ix3 b r d) * Cert.Spec.kap) (fun d : Fin 3 => v3 (ix3 b j d) * Cert.Spec.kap))
          (fun j : Fin 4096 => Cert.Spec.negd (fun d : Fin 32 => v6 (ix3 b r d)) (fun d : Fin 32 => v7 (ix3 b j d)))
        * v8 (ix3 b r 0) := by
  rw [pay1_apply]
  simp -index only [pay2_apply, pay3_apply, pay4_apply]
  rfl

end Cert.KernelIdeal.KValue

end
-- ==== Proof.KernelFinal.lean ====
/-
  The output array after the region, at the ideal values, as one function of the argument arrays.

  Point `t` of the 32 writes back rows 128 t … 128 t + 127 of the [2, 4096] output; its query blocks are the same rows
  of the points, the first features and the weights, and its key blocks are the whole points and second features. So
  entry (b, n) of the output, written by point n / 128, is the kernel's weighted row value `GK` of the argument arrays
  at (b, n); the 32 blocks tile the array, so every entry is written exactly once.
-/
import proofs.«165683_j9474697855457_1_alg».proof.Proof.FrBodyI
import proofs.«165683_j9474697855457_1_alg».proof.Proof.KernelValue
import proofs.«165683_j9474697855457_1_alg».proof.Proof.Spec
import Idealize.ShloMosaic.Lib.ValueIdx
import Idealize.ShloMosaic.Lib.Pipeline.Value

set_option maxRecDepth 16384

noncomputable section

namespace Cert.KernelIdeal.KFinal

open Idealize.ShloMosaic Idealize.ShloMosaic.TcCoe Cert.KernelIdeal Cert.KernelIdeal.Gen Cert.KernelIdeal.Fr ValueIdx
open Idealize.ShloMosaic.Pipeline (Dat)

private theorem off2_zero : (![0, 0] : Fin 2 → Nat) = fun _ => 0 := funext fun a => by fin_cases a <;> rfl
private theorem off3_zero : (![0, 0, 0] : Fin 3 → Nat) = fun _ => 0 := funext fun a => by fin_cases a <;> rfl

-- the TensorCore's buffer contents when the region is entered, at the ideal values
variable (V : (c : Dev nD) → (b : Ref sig .tc) → Buf (Elt Ideal) ((c : Thread nD τ).loc b))

/-- The output array as one function of the argument arrays: entry (b, n) is the kernel's weighted row value of the
    points, the two feature arrays and the weights at (b, n). -/
private def Gfin (c : Dev nD) : S2x4096.Idx → EReal := fun i =>
  Cert.Spec.GK (fun b i d => V c main_arg0 (ix3 b i d)) (fun b i d => V c main_arg1 (ix3 b i d))
    (fun b i d => V c main_arg2 (ix3 b i d)) (fun b i => V c main_arg3 (ix3 b i 0)) (i 0) (i 1)

private theorem Gfin_apply (c : Dev nD) (b : Fin 2) (n : Fin 4096) :
    Gfin V c (ix2 b n) = Cert.Spec.GK (fun b i d => V c main_arg0 (ix3 b i d)) (fun b i d => V c main_arg1 (ix3 b i d))
      (fun b i d => V c main_arg2 (ix3 b i d)) (fun b i => V c main_arg3 (ix3 b i 0)) b n := rfl

/-- The six index maps at each of the 32 points: the three query windows and the output window sit at block `t` of
    the row axis and block 0 of every other axis; the two key windows sit at block 0 of every axis. -/
private theorem index_maps : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = t.val ∧ win0_4.index t (2 : Fin 3) = 0
    ∧ win0_5.index t (0 : Fin 2) = 0 ∧ win0_5.index t (1 : Fin 2) = t.val :=
  (by decide +kernel : ∀ t : Fin grid0.N, _)

/-! ## The five blocks a point loads, read off the argument arrays

A block's coordinate on an axis is its block index there times the block's extent plus the coordinate inside the
block, so row `r` of a query block at point `t` is row `128 t + r` of its array, and a key block is its whole array. -/

/-- The points' query block at point `t`: rows 128 t … 128 t + 127 of the points. -/
private theorem queryPoints_apply (c : Dev nD) (t : Fin cfg0.N) (b : Fin 2) (r : Fin 128) (d : Fin 3) (h : 128 * t.val + r.val < 4096) :
    (iblk0 V c 0 t : Vec Ideal S2x128x3 .f32) (ix3 b r d) = V c main_arg0 (ix3 b ⟨128 * t.val + r.val, h⟩ d) := by
  obtain ⟨e0, e1, e2, -⟩ := index_maps t
  unfold iblk0
  show V c main_arg0 (((cfg0.win 0).blk t).view.emb (ix3 b r d)) = _
  congr 1
  funext a; apply Fin.ext
  match a with
  | ⟨0, _⟩ => show win0_0.index t (0 : Fin 3) * 2 + 1 * b.val = b.val; omega
  | ⟨1, _⟩ => show win0_0.index t (1 : Fin 3) * 128 + 1 * r.val = 128 * t.val + r.val; omega
  | ⟨2, _⟩ => show win0_0.index t (2 : Fin 3) * 3 + 1 * d.val = d.val; omega

/-- The points' key block at any point: the whole array of the points. -/
private theorem keyPoints_apply (c : Dev nD) (t : Fin cfg0.N) (b : Fin 2) (j : Fin 4096) (d : Fin 3) :
    (iblk0 V c 1 t : Vec Ideal S2x4096x3 .f32) (ix3 b j d) = V c main_arg0 (ix3 b j d) := by
  obtain ⟨-, -, -, e0, e1, e2, -⟩ := index_maps t
  unfold iblk0
  show V c main_arg0 (((cfg0.win 1).blk t).view.emb (ix3 b j d)) = _
  congr 1
  funext a; apply Fin.ext
  match a with
  | ⟨0, _⟩ => show win0_1.index t (0 : Fin 3) * 2 + 1 * b.val = b.val; omega
  | ⟨1, _⟩ => show win0_1.index t (1 : Fin 3) * 4096 + 1 * j.val = j.val; omega
  | ⟨2, _⟩ => show win0_1.index t (2 : Fin 3) * 3 + 1 * d.val = d.val; omega

/-- The first features' query block at point `t`: rows 128 t … 128 t + 127 of the first features. -/
private theorem queryFeat_apply (c : Dev nD) (t : Fin cfg0.N) (b : Fin 2) (r : Fin 128) (d : Fin 32) (h : 128 * t.val + r.val < 4096) :
    (iblk0 V c 2 t : Vec Ideal S2x128x32 .f32) (ix3 b r d) = V c main_arg1 (ix3 b ⟨128 * t.val + r.val, h⟩ d) := by
  obtain ⟨-, -, -, -, -, -, e0, e1, e2, -⟩ := index_maps t
  unfold iblk0
  show V c main_arg1 (((cfg0.win 2).blk t).view.emb (ix3 b r d)) = _
  congr 1
  funext a; apply Fin.ext
  match a with
  | ⟨0, _⟩ => show win0_2.index t (0 : Fin 3) * 2 + 1 * b.val = b.val; omega
  | ⟨1, _⟩ => show win0_2.index t (1 : Fin 3) * 128 + 1 * r.val = 128 * t.val + r.val; omega
  | ⟨2, _⟩ => show win0_2.index t (2 : Fin 3) * 32 + 1 * d.val = d.val; omega

/-- The second features' key block at any point: the whole array of the second features. -/
private theorem keyFeat_apply (c : Dev nD) (t : Fin cfg0.N) (b : Fin 2) (j : Fin 4096) (d : Fin 32) :
    (iblk0 V c 3 t : Vec Ideal S2x4096x32 .f32) (ix3 b j d) = V c main_arg2 (ix3 b j d) := by
  obtain ⟨-, -, -, -, -, -, -, -, -, e0, e1, e2, -⟩ := index_maps t
  unfold iblk0
  show V c main_arg2 (((cfg0.win 3).blk t).view.emb (ix3 b j d)) = _
  congr 1
  funext a; apply Fin.ext
  match a with
  | ⟨0, _⟩ => show win0_3.index t (0 : Fin 3) * 2 + 1 * b.val = b.val; omega
  | ⟨1, _⟩ => show win0_3.index t (1 : Fin 3) * 4096 + 1 * j.val = j.val; omega
  | ⟨2, _⟩ => show win0_3.index t (2 : Fin 3) * 32 + 1 * d.val = d.val; omega

/-- The weights' block at point `t`: rows 128 t … 128 t + 127 of the weights. -/
private theorem weight_apply (c : Dev nD) (t : Fin cfg0.N) (b : Fin 2) (r : Fin 128) (h : 128 * t.val + r.val < 4096) :
    (iblk0 V c 4 t : Vec Ideal S2x128x1 .f32) (ix3 b r 0) = V c main_arg3 (ix3 b ⟨128 * t.val + r.val, h⟩ 0) := by
  obtain ⟨-, -, -, -, -, -, -, -, -, -, -, -, e0, e1, e2, -⟩ := index_maps t
  unfold iblk0
  show V c main_arg3 (((cfg0.win 4).blk t).view.emb (ix3 b r 0)) = _
  congr 1
  funext a; apply Fin.ext
  match a with
  | ⟨0, _⟩ => show win0_4.index t (0 : Fin 3) * 2 + 1 * b.val = b.val; omega
  | ⟨1, _⟩ => show win0_4.index t (1 : Fin 3) * 128 + 1 * r.val = 128 * t.val + r.val; omega
  | ⟨2, _⟩ => show win0_4.index t (2 : Fin 3) * 1 + 1 * (0 : Fin 1).val = (0 : Fin 1).val; omega

/-! ## What a point writes back, and the array the 32 blocks make -/

/-- What point `t` writes back is block `t` of `Gfin`: entry (b, r) of the stored block is the kernel's row value of the
    loaded blocks times the weight, the query blocks are rows 128 t + r of their arrays and the key blocks the whole
    arrays, so it is `GK` of the argument arrays at (b, 128 t + r), which is where the block's entry (b, r) sits. -/
private theorem flushed5_eq (c : Dev nD) (t : Fin cfg0.N) :
    (dat0 (F := Ideal) V c).flushed 5 t = ((cfg0.win 5).blk t).view.read (Elt Ideal) (Gfin V c) := by
  show (cfg0.win 5).cut (grid0.coords t) ((dat0 (F := Ideal) V c).after 5 t) = _
  rw [after0_5]
  unfold out0_5
  rw [View.canon_unit_zero off2_zero]
  simp only [View.ld_unit_zero (S := S2x128x3) off3_zero, View.ld_unit_zero (S := S2x4096x3) off3_zero,
    View.ld_unit_zero (S := S2x128x32) off3_zero, View.ld_unit_zero (S := S2x4096x32) off3_zero,
    View.ld_unit_zero (S := S2x128x1) off3_zero]
  have ht : t.val < 32 := t.isLt
  obtain ⟨-, -, -, -, -, -, -, -, -, -, -, -, -, -, -, e0, e1⟩ := index_maps t
  funext j
  obtain ⟨b, r, rfl⟩ : ∃ (b : Fin 2) (r : Fin 128), j = ix2 b r := ⟨j 0, j 1, eq_ix2 j⟩
  have hr : r.val < 128 := r.isLt
  have hn : 128 * t.val + r.val < 4096 := by omega
  refine (KValue.pay_apply _ _ _ _ _ b r).trans ?_
  have hemb : ((cfg0.win 5).blk t).view.emb (ix2 b r) = ix2 b ⟨128 * t.val + r.val, hn⟩ := by
    funext a; apply Fin.ext
    match a with
    | ⟨0, _⟩ => show win0_5.index t (0 : Fin 2) * 2 + 1 * b.val = b.val; omega
    | ⟨1, _⟩ => show win0_5.index t (1 : Fin 2) * 128 + 1 * r.val = 128 * t.val + r.val; omega
  show _ = Gfin V c (((cfg0.win 5).blk t).view.emb (ix2 b r))
  rw [hemb, Gfin_apply]
  simp only [queryPoints_apply V c t _ _ _ hn, keyPoints_apply, queryFeat_apply V c t _ _ _ hn, keyFeat_apply,
    weight_apply V c t _ _ hn]
  rfl

/-- An entry of the array is in point `t`'s block iff each of its coordinates is in the block's range on its axis. -/
private theorem mem_rowBlock (t : Fin cfg0.N) (i : S2x4096.Idx) :
    i ∈ ((cfg0.win 5).blk t).view.set ↔ ∀ a : Fin 2, win0_5.index t a * S2x128.size a ≤ (i a).val ∧ (i a).val < win0_5.index t a * S2x128.size a + S2x128.size a := by
  show i ∈ ((View.whole main_v0).slice (win0_5.rect t)).set ↔ _
  rw [View.set_slice_whole, Rect.mem_set_unit]
  exact Iff.rfl

/-- The 32 blocks cover the array: entry (b, n) is in the block of point n / 128, which writes it back. -/
private theorem rows_covered (i : S2x4096.Idx) : ∃ t : Fin cfg0.N, (cfg0.win 5).flush t = true ∧ i ∈ ((cfg0.win 5).blk t).view.set := by
  have hi0 : (i 0).val < 2 := (i 0).isLt
  have hi1 : (i 1).val < 4096 := (i 1).isLt
  have hq : (i 1).val / 128 < 32 := by omega
  refine ⟨⟨(i 1).val / 128, hq⟩, flush0_5 _, ?_⟩
  obtain ⟨-, -, -, -, -, -, -, -, -, -, -, -, -, -, -, e0, e1⟩ := index_maps ⟨(i 1).val / 128, hq⟩
  rw [mem_rowBlock]
  intro a
  match a with
  | ⟨0, _⟩ =>
    show win0_5.index ⟨(i 1).val / 128, hq⟩ (0 : Fin 2) * 2 ≤ (i 0).val ∧ (i 0).val < win0_5.index ⟨(i 1).val / 128, hq⟩ (0 : Fin 2) * 2 + 2
    omega
  | ⟨1, _⟩ =>
    show win0_5.index ⟨(i 1).val / 128, hq⟩ (1 : Fin 2) * 128 ≤ (i 1).val ∧ (i 1).val < win0_5.index ⟨(i 1).val / 128, hq⟩ (1 : Fin 2) * 128 + 128
    have e1' : win0_5.index ⟨(i 1).val / 128, hq⟩ (1 : Fin 2) = (i 1).val / 128 := e1
    omega

/-- The output array after the last point is `Gfin`: every point writes back its block of `Gfin` and the blocks cover
    the array. -/
private theorem final5 (c : Dev nD) : (dat0 (F := Ideal) V c).arrAt 5 cfg0.N = Gfin V c :=
  (dat0 (F := Ideal) V c).arrAt_eq_of_cover 5 (Gfin V c) (fun t _ => flushed5_eq V c t) rows_covered

/-- The output array after the last point, at entry (b, n). -/
theorem final5_apply (V : (c : Dev nD) → (b : Ref sig .tc) → Buf (Elt Ideal) ((c : Thread nD τ).loc b)) (c : Dev nD)
    (b : Fin 2) (n : Fin 4096) :
    (dat0 (F := Ideal) V c).arrAt 5 cfg0.N (ix2 b n)
      = Cert.Spec.GK (fun b i d => V c main_arg0 (ix3 b i d)) (fun b i d => V c main_arg1 (ix3 b i d))
          (fun b i d => V c main_arg2 (ix3 b i d)) (fun b i => V c main_arg3 (ix3 b i 0)) b n := by
  rw [final5 V c]
  exact Gfin_apply V c b n

end Cert.KernelIdeal.KFinal

end
-- ==== Proof.RefValue.lean ====
/-
  The reference's weighted row values read at an entry, at the ideal values.

  Entry (b, n) of the [2, 4096] array the reference sums at the end is the reference's row form `ceR` of the point
  distances of row `n` (the points divided by the printed divisor, which is the product with its reciprocal) and of the
  feature distances, times the row's weight: the sums over the last axis are finite sums, the two `dot_general`s are
  inner products, each `log_softmax` is `(x - max) - log (∑ exp (x - max))` with the maximum a fold of `max` from
  `-∞`, and the broadcasts and the reshape only re-index.
-/
import proofs.«165683_j9474697855457_1_alg».proof.Proof.RefRead
import proofs.«165683_j9474697855457_1_alg».proof.Proof.Spec
import Idealize.ShloMosaic.Lib.ValueIdx
import Idealize.ShloMosaic.Lib.Pipeline.Value
import Idealize.ShloMosaic.PureOps.Ideal.Laws

noncomputable section

namespace Cert.ReferenceIdeal.RValue

open Idealize.ShloMosaic Cert.ReferenceIdeal Cert.ReferenceIdeal.Gen Cert.ReferenceIdeal.ReadP ValueIdx

/-! ## The literals -/

/-- The printed divisor is the real 5368709 / 2^30. -/
private theorem divisor_eq : Ideal.ofBits .f32 0x3BA3D70A#32 = ((5368709 / 1073741824 : ℝ) : EReal) := by
  simp [Ideal.ofBits, Ideal.ieee, -EReal.coe_mul]; norm_num

/-- The word of 2.0 is the extended real 2. -/
private theorem two_eq : Ideal.ofBits .f32 0x40000000#32 = (2 : EReal) := by
  simp [Ideal.ofBits, Ideal.ieee, -EReal.coe_mul]; norm_num; rfl

/-- The word of -∞ is the bottom element. -/
private theorem neginf_eq : Ideal.ofBits .f32 0xFF800000#32 = (⊥ : EReal) := by
  simp [Ideal.ofBits, Ideal.ieee]

/-- Dividing by the printed divisor is multiplying by its reciprocal. -/
private theorem div_divisor (x : EReal) : Ideal.div x (Ideal.ofBits .f32 0x3BA3D70A#32) = x * Cert.Spec.kap := by
  rw [divisor_eq, Ideal.div_coe (by norm_num : (5368709 / 1073741824 : ℝ) ≠ 0)]
  unfold Cert.Spec.kap
  congr 2; norm_num

/-- An index built coordinate by coordinate from an index given by coordinates is the index of those coordinates. -/
local macro "idx_eq" : tactic =>
  `(tactic| exact funext fun a => Fin.ext (by
      first
      | (match a with | ⟨0, _⟩ => rfl | ⟨1, _⟩ => rfl | ⟨2, _⟩ => rfl)
      | (match a with | ⟨0, _⟩ => rfl | ⟨1, _⟩ => rfl)))

/-! ## The points' distances -/

section Points
variable (x0 : (⟨S2x4096x3, .f32⟩ : BufTy).Contents (Elt Ideal))

/-- The points as a function of their coordinates. -/
local notation "P" => (fun (b : Fin 2) (i : Fin 4096) (d : Fin 3) => x0 (ix3 b i d))

/-- A point divided by the divisor is the scaled point. -/
private theorem v1_at (b : Fin 2) (i : Fin 4096) (d : Fin 3) :
    val_main_v1 (F := Ideal) x0 (ix3 b i d) = Cert.Spec.sp P b i d := by
  rw [val_main_v1_apply, val_main_v0_apply, val_main_cst_apply]
  simp only [Ideal.hostDivf_def, Ideal.ofBits_def]
  exact div_divisor _

/-- The first sum of squares is the squared norm of scaled point i. -/
private theorem v3_at (b : Fin 2) (i : Fin 4096) :
    val_main_v3 (F := Ideal) x0 (ix2 b i) = Cert.Spec.sqn (Cert.Spec.sp P b i) := by
  rw [val_main_v3_apply, val_main_cst_0_apply]
  simp only [Ideal.ofBits_def, Ideal.ofBits_zero_f32, zero_add]
  refine Finset.sum_congr rfl fun k _ => ?_
  have e : idx_main_v3 (ix2 b i) k = ix3 b i k := by idx_eq
  rw [e, val_main_v2_apply, v1_at]
  rfl

/-- The second sum of squares is the same squared norm. -/
private theorem v5_at (b : Fin 2) (i : Fin 4096) :
    val_main_v5 (F := Ideal) x0 (ix2 b i) = Cert.Spec.sqn (Cert.Spec.sp P b i) := by
  rw [val_main_v5_apply, val_main_cst_1_apply]
  simp only [Ideal.ofBits_def, Ideal.ofBits_zero_f32, zero_add]
  refine Finset.sum_congr rfl fun k _ => ?_
  have e : idx_main_v5 (ix2 b i) k = ix3 b i k := by idx_eq
  rw [e, val_main_v4_apply, v1_at]
  rfl

/-- The contraction of the scaled points is the inner product of scaled points i and j. -/
private theorem v6_at (b : Fin 2) (i j : Fin 4096) :
    val_main_v6 (F := Ideal) x0 (ix3 b i j) = Cert.Spec.dotp (Cert.Spec.sp P b i) (Cert.Spec.sp P b j) := by
  rw [val_main_v6_apply]
  refine Finset.sum_congr rfl fun k _ => ?_
  have el : lidx_main_v6 (ix3 b i j) k = ix3 b i k := by idx_eq
  have er : ridx_main_v6 (ix3 b i j) k = ix3 b j k := by idx_eq
  rw [el, er, v1_at, v1_at]

/-- Entry (b, i, j) of the negated expansion is minus the squared distance of scaled points i and j. -/
private theorem v15_at (b : Fin 2) (i j : Fin 4096) :
    val_main_v15 (F := Ideal) x0 (ix3 b i j) = Cert.Spec.pdRow P b i j := by
  rw [val_main_v15_apply, val_main_v14_apply, val_main_v11_apply, val_main_v13_apply, val_main_v9_apply,
    val_main_v7_apply, val_main_v10_apply, val_main_v8_apply, val_main_v12_apply, val_main_cst_2_apply]
  have e1 : idx_main_v7 (idx_main_v9 (ix3 b i j)) = ix2 b i := by idx_eq
  have e2 : idx_main_v8 (idx_main_v10 (ix3 b i j)) = ix2 b j := by idx_eq
  rw [e1, e2, v3_at, v5_at, v6_at]
  simp only [Ideal.hostNegf_def, Ideal.negf_def, Ideal.subf_def, Ideal.addf_def, Ideal.mulf_def, Ideal.ofBits_def, two_eq]
  rfl

end Points

/-! ## The features' distances -/

section Features
variable (x1 x2 : (⟨S2x4096x32, .f32⟩ : BufTy).Contents (Elt Ideal))

/-- The two feature arrays as functions of their coordinates. -/
local notation "A" => (fun (b : Fin 2) (i : Fin 4096) (d : Fin 32) => x1 (ix3 b i d))
local notation "B" => (fun (b : Fin 2) (i : Fin 4096) (d : Fin 32) => x2 (ix3 b i d))

/-- The sum of squares of the first features is the squared norm of row i. -/
private theorem v18_at (b : Fin 2) (i : Fin 4096) :
    val_main_v18 (F := Ideal) x1 (ix2 b i) = Cert.Spec.sqn (A b i) := by
  rw [val_main_v18_apply, val_main_cst_3_apply]
  simp only [Ideal.ofBits_def, Ideal.ofBits_zero_f32, zero_add]
  refine Finset.sum_congr rfl fun k _ => ?_
  have e : idx_main_v18 (ix2 b i) k = ix3 b i k := by idx_eq
  rw [e, val_main_v17_apply]
  rfl

/-- The sum of squares of the second features is the squared norm of row j. -/
private theorem v20_at (b : Fin 2) (j : Fin 4096) :
    val_main_v20 (F := Ideal) x2 (ix2 b j) = Cert.Spec.sqn (B b j) := by
  rw [val_main_v20_apply, val_main_cst_4_apply]
  simp only [Ideal.ofBits_def, Ideal.ofBits_zero_f32, zero_add]
  refine Finset.sum_congr rfl fun k _ => ?_
  have e : idx_main_v20 (ix2 b j) k = ix3 b j k := by idx_eq
  rw [e, val_main_v19_apply]
  rfl

/-- The contraction of the two feature arrays is the inner product of rows i and j. -/
private theorem v21_at (b : Fin 2) (i j : Fin 4096) :
    val_main_v21 (F := Ideal) x1 x2 (ix3 b i j) = Cert.Spec.dotp (A b i) (B b j) := by
  rw [val_main_v21_apply]
  refine Finset.sum_congr rfl fun k _ => ?_
  have el : lidx_main_v21 (ix3 b i j) k = ix3 b i k := by idx_eq
  have er : ridx_main_v21 (ix3 b i j) k = ix3 b j k := by idx_eq
  rw [el, er]

/-- Entry (b, i, j) of the negated expansion is minus the squared distance of feature rows i and j. -/
private theorem v30_at (b : Fin 2) (i j : Fin 4096) :
    val_main_v30 (F := Ideal) x1 x2 (ix3 b i j) = Cert.Spec.fdRow A B b i j := by
  rw [val_main_v30_apply, val_main_v29_apply, val_main_v26_apply, val_main_v28_apply, val_main_v24_apply,
    val_main_v22_apply, val_main_v25_apply, val_main_v23_apply, val_main_v27_apply, val_main_cst_5_apply]
  have e1 : idx_main_v22 (idx_main_v24 (ix3 b i j)) = ix2 b i := by idx_eq
  have e2 : idx_main_v23 (idx_main_v25 (ix3 b i j)) = ix2 b j := by idx_eq
  rw [e1, e2, v18_at, v20_at, v21_at]
  simp only [Ideal.hostNegf_def, Ideal.negf_def, Ideal.subf_def, Ideal.addf_def, Ideal.mulf_def, Ideal.ofBits_def, two_eq]
  rfl

end Features

/-! ## A row's maximum -/

/-- The reduced index (b, i) with the coordinate k put back on the last axis is (b, i, k). -/
private theorem lift_ix3 (h : S2x4096x4096.Reduces [2] S2x4096) (b : Fin 2) (i : Fin 4096) (k : Fin (S2x4096x4096.size 2)) :
    h.lift (ix2 b i) k = ix3 b i (⟨k.val, k.isLt⟩ : Fin 4096) := by
  funext c; apply Fin.ext
  fin_cases c <;> rfl

/-- From -∞ the reduce with a maximum body over the last axis, at (b, i), is the maximum of row (b, i). -/
private theorem reduceMax_at (y : FVec Ideal S2x4096x4096 .f32) (b : Fin 2) (i : Fin 4096) :
    Host.reduce FloatOps.maximumf y (constant (F := Ideal) S_ .f32 0xFF800000#32) reducesTo_S2x4096x4096_S2x4096_d2 h_S_ (ix2 b i)
      = Cert.Spec.rowMax (fun j : Fin 4096 => y (ix3 b i j)) := by
  have h : S2x4096x4096.Reduces [2] S2x4096 := by decide
  rw [Host.reduce_eq_fold_single FloatOps.maximumf y _ reducesTo_S2x4096x4096_S2x4096_d2 h h_S_]
  have hf : (y ∘ h.lift (ix2 b i)) = fun k : Fin 4096 => y (ix3 b i k) := funext fun k => congrArg y (lift_ix3 h b i k)
  show Finset.fold FloatOps.maximumf (Ideal.ofBits .f32 0xFF800000#32) (y ∘ h.lift (ix2 b i)) (Finset.univ : Finset (Fin 4096)) = _
  rw [hf, neginf_eq]
  rfl

/-! ## The two log-softmax blocks -/

section SoftmaxPoints
variable (x0 : (⟨S2x4096x3, .f32⟩ : BufTy).Contents (Elt Ideal))
local notation "P" => (fun (b : Fin 2) (i : Fin 4096) (d : Fin 3) => x0 (ix3 b i d))

/-- The maximum the block subtracts from row (b, i) is that row's maximum. -/
private theorem c0v2_at (b : Fin 2) (i : Fin 4096) :
    val_main_call0_v2 (F := Ideal) x0 (ix2 b i) = Cert.Spec.rowMax (Cert.Spec.pdRow P b i) := by
  rw [val_main_call0_v2_apply, val_main_call0_v1_apply, val_main_call0_cst_0_apply]
  unfold val_main_call0_v0 val_main_call0_cst
  rw [reduceMax_at]
  simp only [Ideal.maximumf_def, Ideal.ofBits_def, neginf_eq, v15_at]
  exact max_bot_left _

/-- The row less its maximum. -/
private theorem c0v5_at (b : Fin 2) (i j : Fin 4096) :
    val_main_call0_v5 (F := Ideal) x0 (ix3 b i j) = Cert.Spec.pdRow P b i j - Cert.Spec.rowMax (Cert.Spec.pdRow P b i) := by
  rw [val_main_call0_v5_apply, val_main_call0_v4_apply, val_main_call0_v3_apply]
  have e : idx_main_call0_v3 (idx_main_call0_v4 (ix3 b i j)) = ix2 b i := by idx_eq
  rw [e, c0v2_at, v15_at]
  rfl

/-- The sum of the exponentials of the row less its maximum. -/
private theorem c0v7_at (b : Fin 2) (i : Fin 4096) :
    val_main_call0_v7 (F := Ideal) x0 (ix2 b i)
      = ∑ k, Ideal.exp (Cert.Spec.pdRow P b i k - Cert.Spec.rowMax (Cert.Spec.pdRow P b i)) := by
  rw [val_main_call0_v7_apply, val_main_call0_cst_1_apply]
  simp only [Ideal.ofBits_def, Ideal.ofBits_zero_f32, zero_add]
  refine Finset.sum_congr rfl fun k _ => ?_
  have e : idx_main_call0_v7 (ix2 b i) k = ix3 b i k := by idx_eq
  rw [e, val_main_call0_v6_apply, c0v5_at]
  rfl

/-- The block's result: the row less its maximum, less the logarithm of that sum (the log-softmax of the points' distances). -/
private theorem v16_at (b : Fin 2) (i j : Fin 4096) :
    val_main_v16 (F := Ideal) x0 (ix3 b i j)
      = (Cert.Spec.pdRow P b i j - Cert.Spec.rowMax (Cert.Spec.pdRow P b i))
          - Ideal.log (∑ k, Ideal.exp (Cert.Spec.pdRow P b i k - Cert.Spec.rowMax (Cert.Spec.pdRow P b i))) := by
  rw [val_main_v16_apply, val_main_call0_v10_apply, val_main_call0_v9_apply, val_main_call0_v8_apply]
  have e : idx_main_call0_v8 (idx_main_call0_v10 (ix3 b i j)) = ix2 b i := by idx_eq
  rw [e, c0v7_at, c0v5_at]
  rfl

end SoftmaxPoints

section SoftmaxFeatures
variable (x1 x2 : (⟨S2x4096x32, .f32⟩ : BufTy).Contents (Elt Ideal))
local notation "A" => (fun (b : Fin 2) (i : Fin 4096) (d : Fin 32) => x1 (ix3 b i d))
local notation "B" => (fun (b : Fin 2) (i : Fin 4096) (d : Fin 32) => x2 (ix3 b i d))

/-- The maximum the block subtracts from row (b, i) is that row's maximum. -/
private theorem c1v2_at (b : Fin 2) (i : Fin 4096) :
    val_main_call1_v2 (F := Ideal) x1 x2 (ix2 b i) = Cert.Spec.rowMax (Cert.Spec.fdRow A B b i) := by
  rw [val_main_call1_v2_apply, val_main_call1_v1_apply, val_main_call1_cst_0_apply]
  unfold val_main_call1_v0 val_main_call1_cst
  rw [reduceMax_at]
  simp only [Ideal.maximumf_def, Ideal.ofBits_def, neginf_eq, v30_at]
  exact max_bot_left _

/-- The row less its maximum. -/
private theorem c1v5_at (b : Fin 2) (i j : Fin 4096) :
    val_main_call1_v5 (F := Ideal) x1 x2 (ix3 b i j) = Cert.Spec.fdRow A B b i j - Cert.Spec.rowMax (Cert.Spec.fdRow A B b i) := by
  rw [val_main_call1_v5_apply, val_main_call1_v4_apply, val_main_call1_v3_apply]
  have e : idx_main_call1_v3 (idx_main_call1_v4 (ix3 b i j)) = ix2 b i := by idx_eq
  rw [e, c1v2_at, v30_at]
  rfl

/-- The sum of the exponentials of the row less its maximum. -/
private theorem c1v7_at (b : Fin 2) (i : Fin 4096) :
    val_main_call1_v7 (F := Ideal) x1 x2 (ix2 b i)
      = ∑ k, Ideal.exp (Cert.Spec.fdRow A B b i k - Cert.Spec.rowMax (Cert.Spec.fdRow A B b i)) := by
  rw [val_main_call1_v7_apply, val_main_call1_cst_1_apply]
  simp only [Ideal.ofBits_def, Ideal.ofBits_zero_f32, zero_add]
  refine Finset.sum_congr rfl fun k _ => ?_
  have e : idx_main_call1_v7 (ix2 b i) k = ix3 b i k := by idx_eq
  rw [e, val_main_call1_v6_apply, c1v5_at]
  rfl

/-- The block's result: the row less its maximum, less the logarithm of that sum (the log-softmax of the features' distances). -/
private theorem v31_at (b : Fin 2) (i j : Fin 4096) :
    val_main_v31 (F := Ideal) x1 x2 (ix3 b i j)
      = (Cert.Spec.fdRow A B b i j - Cert.Spec.rowMax (Cert.Spec.fdRow A B b i))
          - Ideal.log (∑ k, Ideal.exp (Cert.Spec.fdRow A B b i k - Cert.Spec.rowMax (Cert.Spec.fdRow A B b i))) := by
  rw [val_main_v31_apply, val_main_call1_v10_apply, val_main_call1_v9_apply, val_main_call1_v8_apply]
  have e : idx_main_call1_v8 (idx_main_call1_v10 (ix3 b i j)) = ix2 b i := by idx_eq
  rw [e, c1v7_at, c1v5_at]
  rfl

end SoftmaxFeatures

/-! ## The weighted row values -/

/-- The reshape of the weights reads entry (b, n, 0). -/
private theorem idx36_eq (b : Fin 2) (n : Fin 4096) : idx_main_v36 (ix2 b n) = ix3 b n 0 :=
  funext fun a => Fin.ext (by
    have hb := b.isLt; have hn := n.isLt
    match a with
    | ⟨0, _⟩ => show (b.val * 4096 + n.val) / 4096 = b.val; omega
    | ⟨1, _⟩ => show (b.val * 4096 + n.val) / 1 % 4096 = n.val; omega
    | ⟨2, _⟩ => rfl)

/-- The array the reference's last sum runs over, at entry (b, n). -/
theorem v37_apply (x0 : (⟨S2x4096x3, .f32⟩ : BufTy).Contents (Elt Ideal)) (x1 x2 : (⟨S2x4096x32, .f32⟩ : BufTy).Contents (Elt Ideal))
    (x3 : (⟨S2x4096x1, .f32⟩ : BufTy).Contents (Elt Ideal)) (b : Fin 2) (n : Fin 4096) :
    val_main_v37 (F := Ideal) x0 x1 x2 x3 (ix2 b n)
      = Cert.Spec.GR (fun b i d => x0 (ix3 b i d)) (fun b i d => x1 (ix3 b i d)) (fun b i d => x2 (ix3 b i d))
          (fun b i => x3 (ix3 b i 0)) b n := by
  rw [val_main_v37_apply, val_main_v35_apply, val_main_v34_apply, val_main_cst_6_apply, val_main_v36_apply, idx36_eq]
  simp only [Ideal.ofBits_def, Ideal.ofBits_zero_f32, zero_add, Ideal.hostNegf_def, Ideal.negf_def, Ideal.mulf_def]
  unfold Cert.Spec.GR Cert.Spec.ceR
  refine congrArg (fun s : EReal => -s * x3 (ix3 b n 0)) (Finset.sum_congr rfl fun k _ => ?_)
  have e : idx_main_v34 (ix2 b n) k = ix3 b n k := by idx_eq
  rw [e, val_main_v33_apply, val_main_v32_apply, v16_at, v31_at]
  rfl

end Cert.ReferenceIdeal.RValue

end
-- ==== Proof.Law.lean ====
/-
  The two row forms of `Proof/Spec.lean` agree on rows of real numbers.

  With every `pd j` and `fd j` real and at least one key, each row maximum is real, `e j = exp (pd j - M_p)` is a
  positive real, so `l_p = ∑ e` and `l_f` are positive reals, and `exp (a - log l_p) = exp a / l_p`. Then
  `∑ (e j / l_p) · (fd j - M_f - log l_f) = (∑ e j · fd j) / l_p - (M_f + log l_f) · (∑ e j) / l_p`
  and `(∑ e j) / l_p = 1`: minus this is the kernel's `-(S / l_p) + M_f + log l_f`. Distributing the product over the
  difference and the sum is where real (finite) entries are used.
-/
import proofs.«165683_j9474697855457_1_alg».proof.Proof.Spec

noncomputable section

namespace Cert.Spec

open Idealize.ShloMosaic

/-- A finite sum of real numbers, read in the extended reals, is the real sum. -/
private theorem coe_sum {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The maximum of a nonempty finite family of real numbers, folded from `-∞`, is a real number. -/
private theorem fold_max_real {ι : Type*} (s : Finset ι) (g : ι → ℝ) (hs : s.Nonempty) :
    ∃ m : ℝ, s.fold max (⊥ : EReal) (fun i => ((g i : ℝ) : EReal)) = (m : EReal) := by
  classical
  induction s using Finset.induction_on with
  | empty => exact absurd hs Finset.not_nonempty_empty
  | insert a s ha ih =>
    rw [Finset.fold_insert ha]
    rcases s.eq_empty_or_nonempty with h | h
    · subst h
      exact ⟨g a, by rw [Finset.fold_empty, max_eq_left bot_le]⟩
    · obtain ⟨m, hm⟩ := ih h
      exact ⟨max (g a) m, by rw [hm]; exact (EReal.coe_strictMono.monotone.map_max).symm⟩

/-- The logarithm of a positive real number, read in the extended reals, is its real logarithm. -/
private theorem log_coe_pos {l : ℝ} (h : 0 < l) : Ideal.log (l : EReal) = ((Real.log l : ℝ) : EReal) := by
  rw [Ideal.log_coe, if_neg (not_le.mpr h)]

/-- The maximum of a row of real numbers over at least one key is a real number. -/
private theorem rowMax_real {N : ℕ} (hN : 0 < N) (g : Fin N → ℝ) :
    ∃ m : ℝ, rowMax (fun j => ((g j : ℝ) : EReal)) = (m : EReal) :=
  fold_max_real Finset.univ g ⟨⟨0, hN⟩, Finset.mem_univ _⟩

/-- The identity over the reals: for any shifts `Mp`, `Mf` and any constant `c`, with `e j = exp (p j - Mp)` and
    `l = ∑ e`, `-(∑ e j · f j) · (1 / l) + Mf + c = -∑ exp ((p j - Mp) - log l) · ((f j - Mf) - c)`. -/
private theorem real_law {N : ℕ} (hN : 0 < N) (p f : Fin N → ℝ) (Mp Mf c : ℝ) :
    -((∑ j, Real.exp (p j - Mp) * f j) * (1 / ∑ j, Real.exp (p j - Mp))) + Mf + c
      = -(∑ j, Real.exp ((p j - Mp) - Real.log (∑ k, Real.exp (p k - Mp))) * ((f j - Mf) - c)) := by
  have hl : 0 < ∑ j, Real.exp (p j - Mp) :=
    Finset.sum_pos (fun j _ => Real.exp_pos _) ⟨⟨0, hN⟩, Finset.mem_univ _⟩
  generalize hL : (∑ j, Real.exp (p j - Mp)) = l at hl ⊢
  have h : ∀ j, Real.exp ((p j - Mp) - Real.log l) = Real.exp (p j - Mp) / l := by
    intro j; rw [Real.exp_sub, Real.exp_log hl]
  simp_rw [h]
  have hs : ∑ j, Real.exp (p j - Mp) / l * ((f j - Mf) - c)
      = (∑ j, Real.exp (p j - Mp) * f j) / l - (Mf + c) * ((∑ j, Real.exp (p j - Mp)) / l) := by
    rw [Finset.sum_div, Finset.sum_div, Finset.mul_sum, ← Finset.sum_sub_distrib]
    exact Finset.sum_congr rfl (fun j _ => by ring)
  rw [hs, hL, div_self hl.ne']
  ring

/-- Minus the squared distance of two real rows is real. -/
theorem negd_real {n : ℕ} (x y : Fin n → EReal) (hx : ∀ d, ∃ r : ℝ, x d = (r : EReal)) (hy : ∀ d, ∃ r : ℝ, y d = (r : EReal)) :
    ∃ r : ℝ, negd x y = (r : EReal) := by
  choose a ha using hx
  choose b hb using hy
  refine ⟨-((∑ d, a d * a d + ∑ d, b d * b d) - 2 * ∑ d, a d * b d), ?_⟩
  unfold negd sqn dotp
  simp only [ha, hb, ← EReal.coe_mul, coe_sum]
  norm_cast

/-- On real rows over at least one key the kernel's form is the reference's. -/
theorem ceK_eq_ceR {N : ℕ} (hN : 0 < N) (pd fd : Fin N → EReal) (hpd : ∀ j, ∃ r : ℝ, pd j = (r : EReal))
    (hfd : ∀ j, ∃ r : ℝ, fd j = (r : EReal)) : ceK pd fd = ceR pd fd := by
  choose p hp using hpd
  choose f hf using hfd
  obtain rfl : pd = fun j => ((p j : ℝ) : EReal) := funext hp
  obtain rfl : fd = fun j => ((f j : ℝ) : EReal) := funext hf
  obtain ⟨Mp, hMp⟩ := rowMax_real hN p
  obtain ⟨Mf, hMf⟩ := rowMax_real hN f
  have hlp : 0 < ∑ j, Real.exp (p j - Mp) :=
    Finset.sum_pos (fun j _ => Real.exp_pos _) ⟨⟨0, hN⟩, Finset.mem_univ _⟩
  have hlf : 0 < ∑ j, Real.exp (f j - Mf) :=
    Finset.sum_pos (fun j _ => Real.exp_pos _) ⟨⟨0, hN⟩, Finset.mem_univ _⟩
  unfold ceK ceR
  rw [hMp, hMf]
  simp only [← EReal.coe_sub, Ideal.exp_coe, ← EReal.coe_mul, coe_sum]
  rw [log_coe_pos hlp, log_coe_pos hlf, Ideal.div_coe hlp.ne']
  simp only [← EReal.coe_sub, Ideal.exp_coe, ← EReal.coe_mul, coe_sum, ← EReal.coe_neg, ← EReal.coe_add]
  rw [real_law hN p f Mp Mf (Real.log (∑ j, Real.exp (f j - Mf)))]

/-- So the two weighted row values agree wherever the points and the features are real (the weights may be anything). -/
theorem GK_eq_GR (P : Fin 2 → Fin 4096 → Fin 3 → EReal) (A B : Fin 2 → Fin 4096 → Fin 32 → EReal) (Wt : Fin 2 → Fin 4096 → EReal)
    (hP : ∀ b i d, ∃ r : ℝ, P b i d = (r : EReal)) (hA : ∀ b i d, ∃ r : ℝ, A b i d = (r : EReal))
    (hB : ∀ b i d, ∃ r : ℝ, B b i d = (r : EReal)) (b : Fin 2) (n : Fin 4096) :
    GK P A B Wt b n = GR P A B Wt b n := by
  have hsp : ∀ i d, ∃ r : ℝ, sp P b i d = (r : EReal) := by
    intro i d
    obtain ⟨r, hr⟩ := hP b i d
    exact ⟨r * (1073741824 / 5368709), by rw [sp, kap, hr, EReal.coe_mul]⟩
  unfold GK GR
  rw [ceK_eq_ceR (by norm_num) (pdRow P b n) (fdRow A B b n)
    (fun j => negd_real _ _ (hsp n) (hsp j)) (fun j => negd_real _ _ (hA b n) (hB b j))]

end Cert.Spec

end
-- ==== Proof.Finite.lean ====
/-
  From the precondition to real entries: `finite_inputs` says, of each of the four arrays, that every entry's
  absolute value is below `+∞`; an extended real whose absolute value is below `+∞` is a real number.
-/
import proofs.«165683_j9474697855457_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

variable [Cert.Pre_finite_inputs.Facts]

/-- The word `0x7F800000` denotes `+∞`: all-ones exponent, zero significand, sign clear. -/
private theorem top_word : Ideal.ofBits .f32 0x7F800000#32 = (⊤ : EReal) := by
  simp [Ideal.ofBits, Ideal.ieee]

/-- An extended real whose absolute value `max x (-x)` is strictly below `+∞` is a real number:
    at `⊥` and at `⊤` the absolute value is `⊤`, which is not below itself. -/
private theorem real_of_abs_lt_top (x : EReal)
    (h : FloatOps.cmpf (F := Ideal) (φ := .f32) .olt (FloatOps.absf (F := Ideal) (φ := .f32) x)
      (Ideal.ofBits .f32 0x7F800000#32) = 1#1) : ∃ r : ℝ, x = (r : EReal) := by
  rw [Ideal.cmpf_def, Ideal.absf_def, top_word] at h
  induction x using EReal.rec with
  | bot => simp [Ideal.cmp] at h
  | coe r => exact ⟨r, rfl⟩
  | top => simp [Ideal.cmp] at h

/-- The result shape has rank 0, so it has exactly one index. -/
private instance : Subsingleton S_.Idx := ⟨fun a b => funext fun d => d.elim0⟩

/-- Where the printed precondition is all ones, every entry of every argument array is a real number. -/
theorem of_pre (a0 : FVec Ideal S2x4096x3 .f32) (a1 a2 : FVec Ideal S2x4096x32 .f32) (a3 : FVec Ideal S2x4096x1 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_abs_lt_top _ (Host.reduce_andi_all _ _ _ _ _ h0' i)
  · exact real_of_abs_lt_top _ (Host.reduce_andi_all _ _ _ _ _ h1 i)
  · exact real_of_abs_lt_top _ (Host.reduce_andi_all _ _ _ _ _ h2 i)
  · exact real_of_abs_lt_top _ (Host.reduce_andi_all _ _ _ _ _ h3 i)

end Cert.Finite

end
-- ==== Proof.lean ====
/-
  The certificate's five claims.

  The kernel computes, per batch and query row, the cross entropy of the softmax of the scaled points' negated squared
  distances against the log-softmax of the features', in the fused form `-(S / l_p) + M_f + log l_f`, weights it, and
  the host sums over the rows; the reference computes the same through two `log_softmax`es. The kernel multiplies the
  points by the folded reciprocal of the divisor the reference divides by; at the ideal values that constant is named
  the exact reciprocal of the reference's printed divisor, so the two scalings are one. On finite inputs every row of
  distances is real and the two forms agree (distributing the sum over the difference is where finiteness is used);
  the regularizer is the same host lines in both programs.

  Frames: the kernel's program is its one region followed by host lines; the region's two windows on the points' array
  share it, half each, and no window writes an argument. The reference is straight-line host code.
-/
import proofs.«165683_j9474697855457_1_alg».proof.Defs
import proofs.«165683_j9474697855457_1_alg».proof.Proof.Gen.Kernel
import proofs.«165683_j9474697855457_1_alg».proof.Proof.Gen.KernelIdeal
import proofs.«165683_j9474697855457_1_alg».proof.Proof.Gen.ReferenceIdeal
import proofs.«165683_j9474697855457_1_alg».proof.Proof.Gen.Pre_finite_inputs
import proofs.«165683_j9474697855457_1_alg».proof.Proof.FrResI
import proofs.«165683_j9474697855457_1_alg».proof.Proof.FrResB
import proofs.«165683_j9474697855457_1_alg».proof.Proof.KernelFinal
import proofs.«165683_j9474697855457_1_alg».proof.Proof.RefRead
import proofs.«165683_j9474697855457_1_alg».proof.Proof.RefValue
import proofs.«165683_j9474697855457_1_alg».proof.Proof.Law
import proofs.«165683_j9474697855457_1_alg».proof.Proof.Finite
import Idealize.ShloMosaic.PureOps.IdealRules
import Idealize.ShloMosaic.Lib.ValueIdx
import Idealize.ShloMosaic.Adequacy
import Idealize.ShloMosaic.Init

set_option maxRecDepth 16384

noncomputable section

namespace Cert.Proof

open Idealize.ShloMosaic Idealize.ShloMosaic.TcCoe Idealize.SL.Sem ValueIdx

/-! ## The frames -/

theorem frame_p : Cert.frame_Kernel (hKernel := Cert.Kernel.Gen.facts) (hPre_finite_inputs := Cert.Pre_finite_inputs.Gen.facts) :=
  fun m ρ _ => Cert.Kernel.Fr.frame (F := Bits) m ρ

theorem frame_pi : Cert.frame_KernelIdeal (hKernelIdeal := Cert.KernelIdeal.Gen.facts) (hPre_finite_inputs := Cert.Pre_finite_inputs.Gen.facts) :=
  fun m ρ _ => Cert.KernelIdeal.Fr.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.ValueP.run (F := Ideal) m ρ)

/-! ## The idealization: the scale named twice -/

theorem preserves : Cert.preserves_Kernel_KernelIdeal :=
  ⟨IdealRules.named_const.statement Cert.KernelIdeal.κ "inv_sigma" .f32 0x43480000#32 ((1073741824 / 5368709 : ℝ) : EReal) rfl,
   IdealRules.named_const.statement Cert.KernelIdeal.κ "inv_sigma" .f32 0x43480000#32 ((1073741824 / 5368709 : ℝ) : EReal) rfl⟩

/-! ## The two programs' results are equal -/

open Cert.KernelIdeal Cert.KernelIdeal.Gen Cert.KernelIdeal.Fr in
/-- On arrays whose points and features are real, the array the reference sums is the array the kernel's region
    leaves: entry by entry the reference's row form is the kernel's. -/
theorem rows_eq (m : (ℓ : Loc nD τ sig) → Buf (Elt Ideal) ℓ) (ρ : Dev nD → PrngReg) (c : Dev nD)
    (h0 : ∀ i, ∃ r : ℝ, m ((c : Thread nD τ).loc main_arg0) i = (r : EReal))
    (h1 : ∀ i, ∃ r : ℝ, m ((c : Thread nD τ).loc main_arg1) i = (r : EReal))
    (h2 : ∀ i, ∃ r : ℝ, m ((c : Thread nD τ).loc main_arg2) i = (r : EReal)) :
    Cert.ReferenceIdeal.ReadP.val_main_v37 (F := Ideal) (m ((c : Thread nD τ).loc main_arg0)) (m ((c : Thread nD τ).loc main_arg1))
        (m ((c : Thread nD τ).loc main_arg2)) (m ((c : Thread nD τ).loc main_arg3))
      = (dat0 (F := Ideal) (V1 m ρ) c).arrAt 5 cfg0.N := by
  funext i
  obtain ⟨b, n, rfl⟩ : ∃ (b : Fin 2) (n : Fin 4096), i = ix2 b n := ⟨i 0, i 1, eq_ix2 i⟩
  rw [Cert.ReferenceIdeal.RValue.v37_apply, Cert.KernelIdeal.KFinal.final5_apply]
  exact (Cert.Spec.GK_eq_GR _ _ _ _ (fun b i d => h0 _) (fun b i d => h1 _) (fun b i d => h2 _) b n).symm

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Fr.W3 m ρ c (Proc.devRef .tc Cert.KernelIdeal.main_v1),
    fun c => Cert.KernelIdeal.Fr.W3 m ρ c (Proc.devRef .tc Cert.KernelIdeal.main_v12),
    Cert.KernelIdeal.Fr.run_results (F := Ideal) m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · -- the first result: both are the host's sum over the rows of one array
    obtain ⟨f0, f1, f2, -⟩ := Cert.Finite.of_pre _ _ _ _ (hpre c)
    show _ = Cert.KernelIdeal.Fr.W3 m ρ c (Proc.devRef .tc Cert.KernelIdeal.main_v1)
    rw [Cert.KernelIdeal.Fr.W3_main_v1, Cert.ReferenceIdeal.ReadP.val_main_v38_eq]
    unfold Cert.ReferenceIdeal.ReadP.val_main_v38
    rw [(hagree c).1, (hagree c).2.1, (hagree c).2.2.1, (hagree c).2.2.2, rows_eq m ρ c f0 f1 f2]
    rfl
  · -- the second result: the same host lines of the two feature arrays
    show _ = Cert.KernelIdeal.Fr.W3 m ρ c (Proc.devRef .tc Cert.KernelIdeal.main_v12)
    rw [Cert.KernelIdeal.Fr.W3_main_v12, (hagree c).2.1, (hagree c).2.2.1]
    rfl

/-! ## The claim -/

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
